-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1024x1024 : Shape := ⟨2, ![1024, 1024]⟩
abbrev S1024x16 : Shape := ⟨2, ![1024, 16]⟩
abbrev S16x1024 : Shape := ⟨2, ![16, 1024]⟩
abbrev S8192x4096 : Shape := ⟨2, ![8192, 4096]⟩
abbrev S1x4096 : Shape := ⟨2, ![1, 4096]⟩
abbrev S1x1024 : Shape := ⟨2, ![1, 1024]⟩

abbrev nBuf : Space → Nat
  | .hbm => 10
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x16, .f32⟩
  | .local _ .vmem, ⟨3, _⟩ => ⟨S1024x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x16_S1024x16_0_0 : ∀ a, (![0, 0] : Fin 2 → Nat) a + S1024x16.size a ≤ S1024x16.size a
  h_S1024x16 : 0 < S1024x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  shapeCasts_S4x2048x4096_S8192x4096 : S4x2048x4096.ShapeCasts S8192x4096
  shapeCasts_S4096_S1x4096 : S4096.ShapeCasts S1x4096
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.K.Region0.lean ====
/-
  The first region: the weight fold. At each of its 4 × 4 grid points (o, i) the body reads a 1024 × 1024 block of the
  base weight W, a 1024 × 16 block of B and a 16 × 1024 block of A, and writes the block
  W_blk + 2 · (B_blk · A_blk) of the folded weight. It keeps nothing between points.

  Everything is stated at a parameter `V`: what the core's buffers hold when the region is entered.
  * `wblk0 V c w t`   — window `w`'s block at point `t`, read off its array as the region finds it;
  * `foldBlk b a w`   — what the body leaves in the output's staging buffer from the three blocks it loaded;
  * `fold_triple`     — the body's triple on whole staging buffers;
  * `dat0 V c`        — the region's proof data: arrays as found, after each point the inputs' buffers at their
                        blocks and the output's at `foldBlk` of them, the region invariant the scoped rest and the
                        generator register untouched, nothing owed;
  * `body_obligation0` — the body's obligation at every point.
-/
import proofs.«155412_j75548474736691_1_alg».proof.Proof.Gen.Kernel.Launch
import proofs.«155412_j75548474736691_1_alg».proof.Proof.Gen.Kernel.Skeleton
import proofs.«155412_j75548474736691_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def wblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a point that does
    not fetch has not moved the block index), for any proof data whose array is the one found and whose body leaves
    the block in place: the base weight's window, -/
theorem before0_0_of {c : Dev nD} (dat : Dat τ (Elt F) Unit ℕ (UR sig nD τ) ℕ cfg0 c) (hA : dat.A 0 = V c (Pipeline.arrRef spec0 0))
    (hafter : ∀ t, dat.after 0 t = wblk0 V c 0 t) (t : Fin cfg0.N) (d) : dat.before 0 t d = wblk0 V c 0 t :=
  (dat.before_in_eq_fetched 0 rfl (fun _ => rfl) (fun _ _ _ => rfl) (fun t => by rw [hafter]; unfold Dat.blockOf wblk0; rw [hA]; try rfl) t d).trans
    (by unfold Dat.fetched Dat.blockOf wblk0; rw [hA]; try rfl)
/-- B's, -/
theorem before0_1_of {c : Dev nD} (dat : Dat τ (Elt F) Unit ℕ (UR sig nD τ) ℕ cfg0 c) (hA : dat.A 1 = V c (Pipeline.arrRef spec0 1))
    (hafter : ∀ t, dat.after 1 t = wblk0 V c 1 t) (t : Fin cfg0.N) (d) : dat.before 1 t d = wblk0 V c 1 t :=
  (dat.before_in_eq_fetched 1 rfl (fun _ => rfl) (fun _ _ _ => rfl) (fun t => by rw [hafter]; unfold Dat.blockOf wblk0; rw [hA]; try rfl) t d).trans
    (by unfold Dat.fetched Dat.blockOf wblk0; rw [hA]; try rfl)
/-- and A's. -/
theorem before0_2_of {c : Dev nD} (dat : Dat τ (Elt F) Unit ℕ (UR sig nD τ) ℕ cfg0 c) (hA : dat.A 2 = V c (Pipeline.arrRef spec0 2))
    (hafter : ∀ t, dat.after 2 t = wblk0 V c 2 t) (t : Fin cfg0.N) (d) : dat.before 2 t d = wblk0 V c 2 t :=
  (dat.before_in_eq_fetched 2 rfl (fun _ => rfl) (fun _ _ _ => rfl) (fun t => by rw [hafter]; unfold Dat.blockOf wblk0; rw [hA]; try rfl) t d).trans
    (by unfold Dat.fetched Dat.blockOf wblk0; rw [hA]; try rfl)

/-! ## What the body leaves -/

/-- The whole 1024 × 1024 buffer as a rectangle, -/
abbrev rW : Rect S1024x1024 := Rect.unit (s := S1024x1024) ![0, 0] S1024x1024.size inb_S1024x1024_S1024x1024_0_0
/-- the whole 1024 × 16 one, -/
abbrev rB : Rect S1024x16 := Rect.unit (s := S1024x16) ![0, 0] S1024x16.size inb_S1024x16_S1024x16_0_0
/-- and the whole 16 × 1024 one. -/
abbrev rA : Rect S16x1024 := Rect.unit (s := S16x1024) ![0, 0] S16x1024.size inb_S16x1024_S16x1024_0_0

/-- The output's staging buffer after the body: its one whole-buffer store of `W_blk + 2 · (B_blk · A_blk)`. -/
def foldBlk (w : Vec F S1024x1024 .f32) (b : Vec F S1024x16 .f32) (a : Vec F S16x1024 .f32) : Vec F S1024x1024 .f32 :=
  View.canon [⟨rW, k0_pay1 (View.ld b rB) (View.ld a rA) (View.ld w rW)⟩]

/-- That store covers the buffer. -/
theorem foldCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

/-! ## The body's triple -/

set_option maxHeartbeats 1000000 in
/-- On whole staging buffers, the three inputs' at contents `w`, `b`, `a` and the output's at anything, the body runs
    to the continuation with the inputs' as they were and the output's at `foldBlk w b a`. -/
theorem fold_triple (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .f32) (harg5 : arg5.IsWhole)
    (w : Vec F S1024x1024 .f32) (b : Vec F S1024x16 .f32) (a : Vec F S16x1024 .f32) (K : PUnit → sProp 𝕄) :
    iprop(owns (c : Thread nD τ) arg2 fullShare w ∗ owns (c : Thread nD τ) arg3 fullShare b ∗ owns (c : Thread nD τ) arg4 fullShare a
        ∗ (∃ d, owns (c : Thread nD τ) arg5 fullShare d)
        ∗ (iprop(owns (c : Thread nD τ) arg2 fullShare w ∗ owns (c : Thread nD τ) arg3 fullShare b ∗ owns (c : Thread nD τ) arg4 fullShare a
            ∗ owns (c : Thread nD τ) arg5 fullShare (foldBlk w b a)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (foldCover _)

/-! ## The proof data -/

/-- The first region's proof data on core `c`. -/
def dat0 (c : Dev nD) : Dat τ (Elt F) Unit ℕ (UR sig nD τ) ℕ cfg0 c where
  A w := V c (Pipeline.arrRef spec0 w)
  after w t := match w with
    | ⟨0, _⟩ => wblk0 V c 0 t
    | ⟨1, _⟩ => wblk0 V c 1 t
    | ⟨2, _⟩ => wblk0 V c 2 t
    | ⟨3, _⟩ => foldBlk (wblk0 V c 0 t) (wblk0 V c 1 t) (wblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = wblk0 V c 0 t := by dsimp only [dat0]
theorem after0_1 (c : Dev nD) (t : Fin cfg0.N) : (dat0 V c).after 1 t = wblk0 V c 1 t := by dsimp only [dat0]
theorem after0_2 (c : Dev nD) (t : Fin cfg0.N) : (dat0 V c).after 2 t = wblk0 V c 2 t := by dsimp only [dat0]
theorem after0_3 (c : Dev nD) (t : Fin cfg0.N) :
    (dat0 V c).after 3 t = foldBlk (wblk0 V c 0 t) (wblk0 V c 1 t) (wblk0 V c 2 t) := by dsimp only [dat0]

theorem before0_0 (c : Dev nD) (t : Fin cfg0.N) (d) : (dat0 V c).before 0 t d = wblk0 V c 0 t :=
  before0_0_of V (dat0 V c) (A_eq0 V c 0) (after0_0 V c) t d
theorem before0_1 (c : Dev nD) (t : Fin cfg0.N) (d) : (dat0 V c).before 1 t d = wblk0 V c 1 t :=
  before0_1_of V (dat0 V c) (A_eq0 V c 1) (after0_1 V c) t d
theorem before0_2 (c : Dev nD) (t : Fin cfg0.N) (d) : (dat0 V c).before 2 t d = wblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (fold_triple c Set.univ _ _ _ _ _ _ _ _ _ (wblk0 V c 0 t) (wblk0 V c 1 t) (wblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the first region. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1Runs.lean ====
/-
  The second region: the product against the folded weight, accumulated over the contraction's four blocks. At grid
  point (i, j, k) the body resets its 1024 × 1024 accumulator when k = 0, adds the product of x's block (i, k) with the
  transpose of the folded weight's block (j, k), and when k = 3 stores the accumulator plus the bias's block j into the
  output block (i, j). The accumulator is a scratch buffer of the kernel's own, carried from point to point; the output
  window is touched only at k = 3 and written back only there.

  This module: the two conditions in closed form over the grid, where the output window is idle, the region invariant
  with the accumulator split out of the scoped rest, and the body's triple in each of the three cases
  (first block: k = 0; middle blocks: k = 1, 2; last block: k = 3).
-/
import proofs.«155412_j75548474736691_1_alg».proof.Proof.Gen.Kernel.Launch
import proofs.«155412_j75548474736691_1_alg».proof.Proof.Gen.Kernel.Skeleton
import proofs.«155412_j75548474736691_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two conditions -/

/-- "This is the contraction's first block" (k = 0), as the body computes it from the grid coordinates. -/
abbrev isFirst (i : grid1.Coords) : Prop := (Scalar.cmpi .ne (Scalar.extui (Scalar.cmpi .eq (BitVec.ofNat 32 (i 2).val) 0#32)) 0#32) = 1#1
/-- It holds at the points ≡ 0 (mod 4): the contraction axis is the grid's fastest. -/
theorem isFirst_iff : ∀ t : Fin cfg1.N, isFirst (grid1.coords t) ↔ t.val % 4 = 0 :=
  (by decide +kernel : ∀ t : Fin grid1.N, isFirst (grid1.coords t) ↔ t.val % 4 = 0)

/-- "This is the contraction's last block" (k = 3). -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last block the output window is idle, -/
theorem idle1_3 : ∀ t : Fin cfg1.N, ¬isLast (grid1.coords t) → cfg1.idle 3 (grid1.coords t) = true := by decide +kernel
/-- and is not written back; -/
theorem noFlush1_3 : ∀ t : Fin cfg1.N, ¬isLast (grid1.coords t) → (cfg1.win 3).flush t = false := by decide +kernel
/-- at the last block it is live. -/
theorem live1_3 : ∀ t : Fin cfg1.N, isLast (grid1.coords t) → cfg1.idle 3 (grid1.coords t) = false := by decide +kernel

/-! ## The staging memrefs and the accumulator -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0

/-- The class's region invariant with the accumulator named: the accumulator at some contents, the other scoped
    buffers no window of this region stages at some contents each, the generator register at some state. -/
theorem PhiA1_eq (c : Dev nD) :
    (Pipeline.ΦA spec1 c : sProp 𝕄)
      = iprop(iprop((∃ d, owns (c : Thread nD τ) accM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [accM, owns_whole, bigSepL]
  try rfl

/-! ## Whole-buffer stores read back -/

abbrev rAcc : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

theorem zero2 : (![0, 0] : Fin S1024x1024.rank → Nat) = fun _ => 0 := by
  funext a; match a with | ⟨0, _⟩ => rfl | ⟨1, _⟩ => rfl
theorem zero2b : (![0, 0] : Fin S1x1024.rank → Nat) = fun _ => 0 := by
  funext a; match a with | ⟨0, _⟩ => rfl | ⟨1, _⟩ => rfl

/-- A buffer whose LAST store was of the whole buffer reads back that store's payload, whatever came before. -/
theorem read_after_whole_store {κ : Kind} {sp : Space} (v : View sig κ sp S1024x1024 .f32) (f : v.ty.Contents (Elt F))
    (w : Vec F S1024x1024 .f32) (L : List (View.Piece (Elt F) S1024x1024 .f32)) :
    v.read (Elt F) (v.writes (Elt F) f (⟨rAcc, w⟩ :: L)) = w := by
  rw [View.read_writes_eq_canon _ _ _ (fun y => ⟨_, List.mem_cons_self, View.mem_set_unit_zero zero2 inb_S1024x1024_S1024x1024_0_0 y⟩)]
  exact View.canon_cons_unit_zero zero2 inb_S1024x1024_S1024x1024_0_0 w L

/-! ## The body's triple, case by case -/

set_option maxHeartbeats 1000000 in
/-- FIRST BLOCK (k = 0). The inputs' buffers at `x`, `w`, `bb`; the output's, idle here, at `o` and handed back
    untouched; the accumulator at anything. The body leaves the accumulator at the product added to the zero it was
    reset to. -/
theorem run_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : isFirst i) (h1 : ¬isLast i)
    (x w : Vec F S1024x1024 .f32) (bb : Vec F S1x1024 .f32) (o : Vec F S1024x1024 .f32) (K : PUnit → sProp 𝕄) :
    iprop(owns (c : Thread nD τ) arg3 fullShare x ∗ owns (c : Thread nD τ) arg4 fullShare w ∗ owns (c : Thread nD τ) arg5 fullShare bb
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare bb
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

set_option maxHeartbeats 1000000 in
/-- MIDDLE BLOCKS (k = 1, 2). As before, the accumulator now at what the point before left, `s`: the body adds this
    block's product to it. -/
theorem run_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : ¬isFirst i) (h1 : ¬isLast i)
    (x w : Vec F S1024x1024 .f32) (bb : Vec F S1x1024 .f32) (o : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare bb
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare bb
            ∗ owns (c : Thread nD τ) arg6 fullShare o ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

set_option maxHeartbeats 1000000 in
/-- LAST BLOCK (k = 3). The accumulator at `s`, the output's buffer at anything: the body adds this block's product,
    then stores the sum plus the bias's block, broadcast down the rows, into the output's buffer. -/
theorem run_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : ¬isFirst i) (h1 : isLast i)
    (x w : Vec F S1024x1024 .f32) (bb : Vec F S1x1024 .f32) (s : Vec F S1024x1024 .f32) (K : PUnit → sProp 𝕄) :
    iprop(owns (c : Thread nD τ) arg3 fullShare x ∗ owns (c : Thread nD τ) arg4 fullShare w ∗ owns (c : Thread nD τ) arg5 fullShare bb
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare bb
            ∗ owns (c : Thread nD τ) arg6 fullShare (k1_pay3 (k1_pay2 x w s) bb) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_after_whole_store _ _ _ _).trans ?_
    sl_unfold_words
    simp only [View.readAt_eq_ld, View.ld_unit_zero (S := S1024x1024) zero2, View.ld_unit_zero (S := S1x1024) zero2b, View.readCov_unit_zero (S := S1024x1024) _ zero2]
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

end Cert.Kernel.Frm

end
-- ==== Proof.K.Region1.lean ====
/-
  The second region, continued: what the accumulator holds after each point, the region invariant that tracks it, the
  proof data, and the body's obligation at every point.

  The contraction axis is the grid's fastest, so the points come in runs of four: a point ≡ 0 (mod 4) resets the
  accumulator and adds the first block's product, the next three add theirs to what the point before left, and the
  point ≡ 3 (mod 4) also stores accumulator plus bias into the output block, which is written back only there.
  * `wblk1 V c w t`    — window `w`'s block at point `t`, read off its array as the region finds it;
  * `accAfter V c n`   — the accumulator after point `n`, by recursion inside the run of four;
  * `outBlk V c t`     — the output's staging buffer after a last-block point;
  * `PhiAcc V c n`     — the region invariant before point `n`: before the first the class's (the accumulator at
                         anything), afterwards the accumulator at `accAfter (n - 1)`, the other scoped buffers and the
                         generator register as they are;
  * `dat1`, `body_obligation1`, `hin1`, `hout1`.
-/
import proofs.«155412_j75548474736691_1_alg».proof.Proof.K.Region1Runs

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def wblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the one found and whose body leaves the block in place: x's window, -/
theorem before1_0_of {c : Dev nD} (dat : Dat τ (Elt F) Unit ℕ (UR sig nD τ) ℕ cfg1 c) (hA : dat.A 0 = V c (Pipeline.arrRef spec1 0))
    (hafter : ∀ t, dat.after 0 t = wblk1 V c 0 t) (t : Fin cfg1.N) (d) : dat.before 0 t d = wblk1 V c 0 t :=
  (dat.before_in_eq_fetched 0 rfl (fun _ => rfl) (fun _ _ _ => rfl) (fun t => by rw [hafter]; unfold Dat.blockOf wblk1; rw [hA]; try rfl) t d).trans
    (by unfold Dat.fetched Dat.blockOf wblk1; rw [hA]; try rfl)
/-- the folded weight's, -/
theorem before1_1_of {c : Dev nD} (dat : Dat τ (Elt F) Unit ℕ (UR sig nD τ) ℕ cfg1 c) (hA : dat.A 1 = V c (Pipeline.arrRef spec1 1))
    (hafter : ∀ t, dat.after 1 t = wblk1 V c 1 t) (t : Fin cfg1.N) (d) : dat.before 1 t d = wblk1 V c 1 t :=
  (dat.before_in_eq_fetched 1 rfl (fun _ => rfl) (fun _ _ _ => rfl) (fun t => by rw [hafter]; unfold Dat.blockOf wblk1; rw [hA]; try rfl) t d).trans
    (by unfold Dat.fetched Dat.blockOf wblk1; rw [hA]; try rfl)
/-- and the bias's (fetched only at the first point of each run of four: its block index does not move inside a run). -/
theorem before1_2_of {c : Dev nD} (dat : Dat τ (Elt F) Unit ℕ (UR sig nD τ) ℕ cfg1 c) (hA : dat.A 2 = V c (Pipeline.arrRef spec1 2))
    (hafter : ∀ t, dat.after 2 t = wblk1 V c 2 t) (t : Fin cfg1.N) (d) : dat.before 2 t d = wblk1 V c 2 t :=
  (dat.before_in_eq_fetched 2 rfl (fun _ => rfl) (fun _ _ _ => rfl) (fun t => by rw [hafter]; unfold Dat.blockOf wblk1; rw [hA]; try rfl) t d).trans
    (by unfold Dat.fetched Dat.blockOf wblk1; rw [hA]; try rfl)

/-! ## The accumulator, point by point -/

/-- The accumulator after point `n`: at the first point of a run of four the block product added to the zero it was
    reset to, otherwise the block product added to what the point before left. -/
def accAfter (c : Dev nD) : (n : ℕ) → n < cfg1.N → Vec F S1024x1024 .f32
  | 0, hn => k1_pay2 (wblk1 V c 0 ⟨0, hn⟩) (wblk1 V c 1 ⟨0, hn⟩) (k1_pay1 (F := F))
  | n + 1, hn =>
    if (n + 1) % 4 = 0 then k1_pay2 (wblk1 V c 0 ⟨n + 1, hn⟩) (wblk1 V c 1 ⟨n + 1, hn⟩) (k1_pay1 (F := F))
    else k1_pay2 (wblk1 V c 0 ⟨n + 1, hn⟩) (wblk1 V c 1 ⟨n + 1, hn⟩) (accAfter c n (Nat.lt_of_succ_lt hn))

theorem accAfter_first (c : Dev nD) (t : Fin cfg1.N) (h : t.val % 4 = 0) :
    accAfter V c t.val t.isLt = k1_pay2 (wblk1 V c 0 t) (wblk1 V c 1 t) (k1_pay1 (F := F)) := by
  obtain ⟨n, hn⟩ := t
  cases n with
  | zero => exact rfl
  | succ n => exact (if_pos h).trans rfl

theorem accAfter_next (c : Dev nD) (t : Fin cfg1.N) (h : ¬t.val % 4 = 0) :
    accAfter V c t.val t.isLt
      = k1_pay2 (wblk1 V c 0 t) (wblk1 V c 1 t) (accAfter V c (t.val - 1) (Nat.lt_of_le_of_lt (Nat.sub_le _ _) t.isLt)) := by
  obtain ⟨n, hn⟩ := t
  cases n with
  | zero => exact absurd (Nat.zero_mod _) h
  | succ n => exact (if_neg h).trans rfl

/-- The output's staging buffer after a last-block point: the accumulator plus the bias's block down the rows. -/
def outBlk (c : Dev nD) (t : Fin cfg1.N) : Vec F S1024x1024 .f32 :=
  k1_pay3 (accAfter V c t.val t.isLt) (wblk1 V c 2 t)

/-! ## The region invariant -/

/-- Before point `n`. -/
def PhiAcc (c : Dev nD) : (n : ℕ) → n ≤ cfg1.N → sProp 𝕄
  | 0, _ => Pipeline.ΦA spec1 c
  | n + 1, hn => iprop(iprop(owns (c : Thread nD τ) accM fullShare (accAfter V c n hn) ∗ Pipeline.scopedRestBut (Ix := Unit) (Name := ℕ) (U := UR sig nD τ) (Lvl := ℕ) (Val := Elt F) spec1 c [cc1_scratch0]) ∗ (∃ r, prngReg c r))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(iprop(owns (c : Thread nD τ) accM fullShare (accAfter V c n hn) ∗ Pipeline.scopedRestBut (Ix := Unit) (Name := ℕ) (U := UR sig nD τ) (Lvl := ℕ) (Val := Elt F) spec1 c [cc1_scratch0]) ∗ (∃ r, prngReg c r)) := rfl

theorem PhiAcc_pos (c : Dev nD) (n : ℕ) (h : n ≤ cfg1.N) (hz : n ≠ 0) :
    PhiAcc V c n h = iprop(iprop(owns (c : Thread nD τ) accM fullShare (accAfter V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The second region's proof data on core `c`: the arrays as found; after each point the inputs' buffers at their
    blocks and the output's at `outBlk` (consulted only at last-block points: elsewhere the window is idle and not
    written back); the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => wblk1 V c 0 t
    | ⟨1, _⟩ => wblk1 V c 1 t
    | ⟨2, _⟩ => wblk1 V c 2 t
    | ⟨3, _⟩ => outBlk V c t
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiAcc V c t.val (Nat.le_of_lt t.isLt) := by
  dsimp only [dat1]; simp only [Fin.coe_castSucc]

theorem after1_0 (c : Dev nD) (t : Fin cfg1.N) : (dat1 V c).after 0 t = wblk1 V c 0 t := by dsimp only [dat1]
theorem after1_1 (c : Dev nD) (t : Fin cfg1.N) : (dat1 V c).after 1 t = wblk1 V c 1 t := by dsimp only [dat1]
theorem after1_2 (c : Dev nD) (t : Fin cfg1.N) : (dat1 V c).after 2 t = wblk1 V c 2 t := by dsimp only [dat1]
theorem after1_3 (c : Dev nD) (t : Fin cfg1.N) : (dat1 V c).after 3 t = outBlk V c t := by dsimp only [dat1]

theorem before1_0 (c : Dev nD) (t : Fin cfg1.N) (d) : (dat1 V c).before 0 t d = wblk1 V c 0 t :=
  before1_0_of V (dat1 V c) (A_eq1 V c 0) (after1_0 V c) t d
theorem before1_1 (c : Dev nD) (t : Fin cfg1.N) (d) : (dat1 V c).before 1 t d = wblk1 V c 1 t :=
  before1_1_of V (dat1 V c) (A_eq1 V c 1) (after1_1 V c) t d
theorem before1_2 (c : Dev nD) (t : Fin cfg1.N) (d) : (dat1 V c).before 2 t d = wblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's place in its run of four says which case
    it is in; the invariant hands over the accumulator at what the point before left (at anything before the very
    first point) and takes it back at this point's contents; before the last block the output's buffer goes back as
    it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiAcc V c (t.val + 1) t.isLt from rfl, PhiAcc_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases hF : t.val % 4 = 0
  · have hL : ¬t.val % 4 = 3 := by omega
    have hl : ¬isLast (grid1.coords t) := fun h => hL ((isLast_iff t).mp h)
    rw [Dat.leavesExact_idle (dat1 V c) 3 t (idle1_3 t hl) (noFlush1_3 t hl)]
    rw [accAfter_first V c t hF]
    by_cases hz : t.val = 0
    · rw [Phi1_castSucc V c t, PhiAcc_zero V c _ _ hz, PhiA1_eq]
      iintro ⟨⟨⟨HS, HR⟩, Hg⟩, Ho, ⟨%d0, H0⟩, ⟨%d1, H1⟩, ⟨%d2, H2⟩, ⟨%d3, H3⟩⟩
      iapply (run_first c Set.univ _ _ _ _ _ _ _ _ _ _ _ ((isFirst_iff t).mpr hF) hl (wblk1 V c 0 t) (wblk1 V c 1 t) (wblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, PhiAcc_pos V c _ _ hz]
      iintro ⟨⟨⟨HS, HR⟩, Hg⟩, Ho, ⟨%d0, H0⟩, ⟨%d1, H1⟩, ⟨%d2, H2⟩, ⟨%d3, H3⟩⟩
      iapply (run_first c Set.univ _ _ _ _ _ _ _ _ _ _ _ ((isFirst_iff t).mpr hF) hl (wblk1 V c 0 t) (wblk1 V c 1 t) (wblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬isFirst (grid1.coords t) := fun h => hF ((isFirst_iff t).mp h)
    have hz : t.val ≠ 0 := fun h => hF (by rw [h])
    rw [accAfter_next V c t hF]
    rw [Phi1_castSucc V c t, PhiAcc_pos V c _ _ hz]
    by_cases hL : t.val % 4 = 3
    · have hl : isLast (grid1.coords t) := (isLast_iff t).mpr hL
      rw [show (dat1 V c).leavesExact 3 t = owns (c : Thread nD τ) (ms1_3 t) fullShare ((dat1 V c).after 3 t) from by
        unfold Dat.leavesExact; rw [live1_3 t hl], after1_3]
      unfold outBlk
      rw [accAfter_next V c t hF]
      iintro ⟨⟨⟨HS, HR⟩, Hg⟩, Ho, ⟨%d0, H0⟩, ⟨%d1, H1⟩, ⟨%d2, H2⟩, ⟨%d3, H3⟩⟩
      iapply (run_last c Set.univ _ _ _ _ _ _ _ _ _ _ _ hf hl (wblk1 V c 0 t) (wblk1 V c 1 t) (wblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast (grid1.coords t) := fun h => hL ((isLast_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (run_mid c Set.univ _ _ _ _ _ _ _ _ _ _ _ hf hl (wblk1 V c 0 t) (wblk1 V c 1 t) (wblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body's obligation at every point of the second region. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end Cert.Kernel.Frm

end
-- ==== Proof.K.Run.lean ====
/-
  The whole program's run. @main is: the weight-fold region; two reshapes on the host (x to [8192, 4096], the bias to
  [1, 4096]); the product region; one reshape of its result to [4, 2048, 4096].

  The core's unscoped buffers are followed from launch to return as valuations `Bd0 … Bd4` (the launch memory; after
  the first region, its arrays at what its write-backs leave; after the host reshapes; after the second region;
  after the last reshape). Each region is entered from "every unscoped buffer at the boundary's valuation, the
  generator register at some state, nothing owed" and left at the next; the regions' proof data are read at their
  entry valuations. `run_main`: every weakly fair execution of @main terminates, and every unscoped buffer ends at
  `Bd4` — from which both the frame (the arguments are never written) and the result's value are read.
-/
import proofs.«155412_j75548474736691_1_alg».proof.Proof.K.Region0
import proofs.«155412_j75548474736691_1_alg».proof.Proof.K.Region1

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev Bd0 : Dev nD → Valuation τ sig (Elt F) := fun c b => m (c, b)
/-- The same read at the TensorCore's references: what the first region's proof data take. -/
abbrev Vin0 : (c : Dev nD) → (b : Ref sig .tc) → Buf (Elt F) ((c : Thread nD τ).loc b) := fun c b => Bd0 m c b
/-- After the first region: its arrays at what the write-backs leave, every other buffer as entered. -/
def Bd1 (c : Dev nD) : Valuation τ sig (Elt F) :=
  Pipeline.withArrays spec0 c (Bd0 m c) fun w => (dat0 (Vin0 m) c).arrAt w cfg0.N
theorem Bd1_arr (c : Dev nD) (w : Fin cfg0.W) :
    Bd1 m c (Proc.devRef .tc (Pipeline.arrRef spec0 w)) = (dat0 (Vin0 m) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m c (Proc.devRef .tc b) = Bd0 m c (Proc.devRef .tc b) := by
  unfold Bd1; exact Pipeline.withArrays_of_ne spec0 c _ _ b hb
abbrev Vout0 : (c : Dev nD) → (b : Ref sig .tc) → Buf (Elt F) ((c : Thread nD τ).loc b) := fun c b => Bd1 m c b
theorem exitArr0 (c : Dev nD) (w : Fin cfg0.W) : (dat0 (Vin0 m) c).arrAt w cfg0.N = Vout0 m c (Pipeline.arrRef spec0 w) :=
  (Bd1_arr m c w).symm
theorem exitRest0 (c : Dev nD) : ∀ b, b ∉ Finset.univ.image (Pipeline.arrRef spec0) → Vout0 m c b = Vin0 m c b :=
  fun b hb => Bd1_of_ne m c b fun w e => hb (Finset.mem_image.mpr ⟨w, Finset.mem_univ _, e⟩)

/-- After the two host reshapes: the second region's entry. -/
abbrev Bd2 : Dev nD → Valuation τ sig (Elt F) := fun c => StableHlo.after hostOps1 (Bd1 m c)
abbrev Vin1 : (c : Dev nD) → (b : Ref sig .tc) → Buf (Elt F) ((c : Thread nD τ).loc b) := fun c b => Bd2 m c b
/-- After the second region. -/
def Bd3 (c : Dev nD) : Valuation τ sig (Elt F) :=
  Pipeline.withArrays spec1 c (Bd2 m c) fun w => (dat1 (Vin1 m) c).arrAt w cfg1.N
theorem Bd3_arr (c : Dev nD) (w : Fin cfg1.W) :
    Bd3 m c (Proc.devRef .tc (Pipeline.arrRef spec1 w)) = (dat1 (Vin1 m) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m c (Proc.devRef .tc b) = Bd2 m c (Proc.devRef .tc b) := by
  unfold Bd3; exact Pipeline.withArrays_of_ne spec1 c _ _ b hb
abbrev Vout1 : (c : Dev nD) → (b : Ref sig .tc) → Buf (Elt F) ((c : Thread nD τ).loc b) := fun c b => Bd3 m c b
theorem exitArr1 (c : Dev nD) (w : Fin cfg1.W) : (dat1 (Vin1 m) c).arrAt w cfg1.N = Vout1 m c (Pipeline.arrRef spec1 w) :=
  (Bd3_arr m c w).symm
theorem exitRest1 (c : Dev nD) : ∀ b, b ∉ Finset.univ.image (Pipeline.arrRef spec1) → Vout1 m c b = Vin1 m c b :=
  fun b hb => Bd3_of_ne m c b fun w e => hb (Finset.mem_image.mpr ⟨w, Finset.mem_univ _, e⟩)
/-- After the last reshape: the return. -/
abbrev Bd4 : Dev nD → Valuation τ sig (Elt F) := fun c => StableHlo.after hostOps2 (Bd3 m c)

/-! ## The proof data family and the thread state -/

/-- No pipeline has a prefetched table. -/
abbrev admT : (p : Fin 2) → (pcfgs (F := F) p).Adm := fun p => (cfgs p).toPCfg_adm
/-- Both pipelines' proof data, each at its region's entry contents. -/
def allDats : (p : Fin 2) → (c : Dev nD) → Dat τ (Elt F) Unit ℕ (UR sig nD τ) ℕ (Pipeline.pin (pcfgs (F := F)) admT p) c
  | ⟨0, _⟩ => fun c => dat0 (Vin0 m) c
  | ⟨1, _⟩ => fun c => dat1 (Vin1 m) c
abbrev 𝒱ₙ : Variants := Variants.none
/-- No core owes another anything: no level is assigned. -/
abbrev noLv : GSem nD τ sig → Finset Unit := fun _ => ∅
abbrev noLvl : GSem nD τ sig → Unit → ℕ := fun _ _ => 0
/-- What rides beside the buffers through every segment: the generator register at some state, nothing owed. -/
abbrev Rest (c : Dev nD) : sProp 𝕄 := iprop((∃ r, prngReg c r) ∗ ∃ W, owes (c : Thread nD τ) (0 : CellTallies nD τ sig Unit) W)

theorem hostOps1_noFresh : (hostOps1 : List (HloOp τ sig (Elt F))).Forall fun op => op.fresh = ∅ := by
  simp only [List.Forall]; repeat' constructor
theorem hostOps2_noFresh : (hostOps2 : List (HloOp τ sig (Elt F))).Forall fun op => op.fresh = ∅ := by
  simp only [List.Forall]; repeat' constructor

/-- A host stretch as a segment, over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ noLv noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def foldSeg : Pipeline.RegionSeg (pcfgs (F := F)) admT (allDats m) () defs₀ 𝒱ₙ noLv noLvl 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noLv noLvl 0 fun _ _ => rfl
  pre c := iprop(StableHlo.held (c : Thread nD τ) (Pipeline.ucRefs τ sig) (Bd0 m c) ∗ Rest c)
  post c := iprop(StableHlo.held (c : Thread nD τ) (Pipeline.ucRefs τ sig) (Bd1 m c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admT (allDats m) launch0.win launch0.arr_whole c
      ((allDats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (allDats m) ((allDats m 0 c).share_full fun _ => rfl)
      (Vin0 m c) (Vout0 m c) ((allDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def prodSeg : Pipeline.RegionSeg (pcfgs (F := F)) admT (allDats m) () defs₀ 𝒱ₙ noLv noLvl 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noLv noLvl 1 fun _ _ => rfl
  pre c := iprop(StableHlo.held (c : Thread nD τ) (Pipeline.ucRefs τ sig) (Bd2 m c) ∗ Rest c)
  post c := iprop(StableHlo.held (c : Thread nD τ) (Pipeline.ucRefs τ sig) (Bd3 m c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admT (allDats m) launch1.win launch1.arr_whole c
      ((allDats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine _root_.Idealize.SL.BI.BIBase.Entails.trans ?_ (hin1 (Vin1 m) c)
    unfold Pipeline.ΦA
    iintro ⟨Hp, -, Hr⟩
    isplitl [Hr]; · iexact Hr
    iexact Hp
  hout c := by
    rw [Pipeline.ownSems0_none]
    refine _root_.Idealize.SL.BI.BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (allDats m) ((allDats m 1 c).share_full fun _ => rfl)
      (Vin1 m c) (Vout1 m c) ((allDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) admT (allDats m) () defs₀ 𝒱ₙ noLv noLvl) :=
  [ .region (foldSeg m),
    .host (hostSeg hostOps1 hostOps1_sub hostOps1_noFresh (Bd1 m)),
    .region (prodSeg m),
    .host (hostSeg hostOps2 hostOps2_sub hostOps2_noFresh (Bd3 m)) ]

theorem main_is_segs (c : Dev nD) : main (F := F) c = Pipeline.Seg.run (mainSegs m) := (main_chain c).trans (by chain_rfl)

set_option backward.isDefEq.respectTransparency.types false in
/-- From any memory with zero counters every weakly fair execution of @main terminates, nothing faulting, and every
    unscoped buffer of every core ends at `Bd4`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd4 m c b) :=
  Pipeline.θ_run_regions_kit (pcfgs (F := F)) admT (allDats m) () cellOf_inj emb₁ defs₀ 𝒱ₙ noLv noLvl m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rest c))
    (Tₙ := fun c => iprop(StableHlo.held (c : Thread nD τ) (Pipeline.ucRefs τ sig) (Bd4 m c) ∗ ∃ r, prngReg c r))
    (hch := ⟨fun _ => .rfl, fun _ => .rfl, fun _ => .rfl, fun _ => .rfl, fun c => by
      show iprop(StableHlo.held (c : Thread nD τ) (Pipeline.ucRefs τ sig) (Bd4 m c) ∗ Rest c) ⊢ _
      iintro ⟨Hh, Hp, Ho⟩
      isplitl [Hh Hp]
      · isplitl [Hh]; · iexact Hh
        iexact Hp
      iexact Ho⟩)
    (hinit := by
      refine Pipeline.initEach noLv noLvl fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m c b)
    (hfin := fun c s' => by
      iintro ⟨⟨Hh, -⟩, HSI⟩
      unfold StableHlo.held
      imodintro
      iapply (pointsTo_read_all (Pipeline.ucRefs τ sig) (fun b => (((c : Thread nD τ)).1, b)) (Bd4 m c) s')
      isplitl [Hh] <;> iassumption)
    (hQ := fun s h c => h c)

end Cert.Kernel.Frm

end
-- ==== Proof.K.Ends.lean ====
/-
  The arguments at the return. No reshape writes an argument and no region does: the first region reads the base
  weight, B and A through input windows and never sees x or the bias; the second region's arrays are the reshaped
  x, the folded weight, the reshaped bias and its result. So the valuation at the return, read at an argument's
  buffer, walks back boundary by boundary to the launch memory.
-/
import proofs.«155412_j75548474736691_1_alg».proof.Proof.K.Run

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-- X ends as launched: no region has it as an array, and no reshape writes it. -/
theorem Bd4_arg0 (c : Dev nD) : Bd4 m c (Proc.devRef .tc main_arg0) = m ((c : Thread nD τ).loc main_arg0) :=
  calc Bd4 m c (Proc.devRef .tc main_arg0)
    _ = Bd3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg0) := Bd3_of_ne m c main_arg0 (by decide)
    _ = Bd1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg0) := Bd1_of_ne m c main_arg0 (by decide)
    _ = m ((c : Thread nD τ).loc main_arg0) := rfl

/-- The base weight ends as launched: the first region only reads it (an input window's array is never written), and no reshape writes it. -/
theorem Bd4_arg1 (c : Dev nD) : Bd4 m c (Proc.devRef .tc main_arg1) = m ((c : Thread nD τ).loc main_arg1) :=
  calc Bd4 m c (Proc.devRef .tc main_arg1)
    _ = Bd3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg1) := Bd3_of_ne m c main_arg1 (by decide)
    _ = Bd1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg1) := (Bd1_arr m c 0).trans (((dat0 (Vin0 m) c).arrAt_in 0 rfl _).trans (A_eq0 (Vin0 m) c 0))
    _ = m ((c : Thread nD τ).loc main_arg1) := rfl

/-- The bias ends as launched: no region has it as an array, and no reshape writes it. -/
theorem Bd4_arg2 (c : Dev nD) : Bd4 m c (Proc.devRef .tc main_arg2) = m ((c : Thread nD τ).loc main_arg2) :=
  calc Bd4 m c (Proc.devRef .tc main_arg2)
    _ = Bd3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg2) := Bd3_of_ne m c main_arg2 (by decide)
    _ = Bd1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg2) := Bd1_of_ne m c main_arg2 (by decide)
    _ = m ((c : Thread nD τ).loc main_arg2) := rfl

/-- A ends as launched: the first region only reads it (an input window's array is never written), and no reshape writes it. -/
theorem Bd4_arg3 (c : Dev nD) : Bd4 m c (Proc.devRef .tc main_arg3) = m ((c : Thread nD τ).loc main_arg3) :=
  calc Bd4 m c (Proc.devRef .tc main_arg3)
    _ = Bd3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg3) := Bd3_of_ne m c main_arg3 (by decide)
    _ = Bd1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg3) := (Bd1_arr m c 2).trans (((dat0 (Vin0 m) c).arrAt_in 2 rfl _).trans (A_eq0 (Vin0 m) c 2))
    _ = m ((c : Thread nD τ).loc main_arg3) := rfl

/-- B ends as launched: the first region only reads it (an input window's array is never written), and no reshape writes it. -/
theorem Bd4_arg4 (c : Dev nD) : Bd4 m c (Proc.devRef .tc main_arg4) = m ((c : Thread nD τ).loc main_arg4) :=
  calc Bd4 m c (Proc.devRef .tc main_arg4)
    _ = Bd3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg4) := Bd3_of_ne m c main_arg4 (by decide)
    _ = Bd1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg4) := (Bd1_arr m c 1).trans (((dat0 (Vin0 m) c).arrAt_in 1 rfl _).trans (A_eq0 (Vin0 m) c 1))
    _ = m ((c : Thread nD τ).loc main_arg4) := rfl

end Cert.Kernel.Frm

end
-- ==== Proof.KI.Region0.lean ====
/-
  The first region: the weight fold. At each of its 4 × 4 grid points (o, i) the body reads a 1024 × 1024 block of the
  base weight W, a 1024 × 16 block of B and a 16 × 1024 block of A, and writes the block
  W_blk + 2 · (B_blk · A_blk) of the folded weight. It keeps nothing between points.

  Everything is stated at a parameter `V`: what the core's buffers hold when the region is entered.
  * `wblk0 V c w t`   — window `w`'s block at point `t`, read off its array as the region finds it;
  * `foldBlk b a w`   — what the body leaves in the output's staging buffer from the three blocks it loaded;
  * `fold_triple`     — the body's triple on whole staging buffers;
  * `dat0 V c`        — the region's proof data: arrays as found, after each point the inputs' buffers at their
                        blocks and the output's at `foldBlk` of them, the region invariant the scoped rest and the
                        generator register untouched, nothing owed;
  * `body_obligation0` — the body's obligation at every point.
-/
import proofs.«155412_j75548474736691_1_alg».proof.Proof.Gen.KernelIdeal.Launch
import proofs.«155412_j75548474736691_1_alg».proof.Proof.Gen.KernelIdeal.Skeleton
import proofs.«155412_j75548474736691_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def wblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a point that does
    not fetch has not moved the block index), for any proof data whose array is the one found and whose body leaves
    the block in place: the base weight's window, -/
theorem before0_0_of {c : Dev nD} (dat : Dat τ (Elt F) Unit ℕ (UR sig nD τ) ℕ cfg0 c) (hA : dat.A 0 = V c (Pipeline.arrRef spec0 0))
    (hafter : ∀ t, dat.after 0 t = wblk0 V c 0 t) (t : Fin cfg0.N) (d) : dat.before 0 t d = wblk0 V c 0 t :=
  (dat.before_in_eq_fetched 0 rfl (fun _ => rfl) (fun _ _ _ => rfl) (fun t => by rw [hafter]; unfold Dat.blockOf wblk0; rw [hA]; try rfl) t d).trans
    (by unfold Dat.fetched Dat.blockOf wblk0; rw [hA]; try rfl)
/-- B's, -/
theorem before0_1_of {c : Dev nD} (dat : Dat τ (Elt F) Unit ℕ (UR sig nD τ) ℕ cfg0 c) (hA : dat.A 1 = V c (Pipeline.arrRef spec0 1))
    (hafter : ∀ t, dat.after 1 t = wblk0 V c 1 t) (t : Fin cfg0.N) (d) : dat.before 1 t d = wblk0 V c 1 t :=
  (dat.before_in_eq_fetched 1 rfl (fun _ => rfl) (fun _ _ _ => rfl) (fun t => by rw [hafter]; unfold Dat.blockOf wblk0; rw [hA]; try rfl) t d).trans
    (by unfold Dat.fetched Dat.blockOf wblk0; rw [hA]; try rfl)
/-- and A's. -/
theorem before0_2_of {c : Dev nD} (dat : Dat τ (Elt F) Unit ℕ (UR sig nD τ) ℕ cfg0 c) (hA : dat.A 2 = V c (Pipeline.arrRef spec0 2))
    (hafter : ∀ t, dat.after 2 t = wblk0 V c 2 t) (t : Fin cfg0.N) (d) : dat.before 2 t d = wblk0 V c 2 t :=
  (dat.before_in_eq_fetched 2 rfl (fun _ => rfl) (fun _ _ _ => rfl) (fun t => by rw [hafter]; unfold Dat.blockOf wblk0; rw [hA]; try rfl) t d).trans
    (by unfold Dat.fetched Dat.blockOf wblk0; rw [hA]; try rfl)

/-! ## What the body leaves -/

/-- The whole 1024 × 1024 buffer as a rectangle, -/
abbrev rW : Rect S1024x1024 := Rect.unit (s := S1024x1024) ![0, 0] S1024x1024.size inb_S1024x1024_S1024x1024_0_0
/-- the whole 1024 × 16 one, -/
abbrev rB : Rect S1024x16 := Rect.unit (s := S1024x16) ![0, 0] S1024x16.size inb_S1024x16_S1024x16_0_0
/-- and the whole 16 × 1024 one. -/
abbrev rA : Rect S16x1024 := Rect.unit (s := S16x1024) ![0, 0] S16x1024.size inb_S16x1024_S16x1024_0_0

/-- The output's staging buffer after the body: its one whole-buffer store of `W_blk + 2 · (B_blk · A_blk)`. -/
def foldBlk (w : Vec F S1024x1024 .f32) (b : Vec F S1024x16 .f32) (a : Vec F S16x1024 .f32) : Vec F S1024x1024 .f32 :=
  View.canon [⟨rW, k0_pay1 (View.ld b rB) (View.ld a rA) (View.ld w rW)⟩]

/-- That store covers the buffer. -/
theorem foldCover (p0 : Vec F S1024x1024 .f32) (y : S1024x1024.Idx) :
    ∃ pc ∈ ([⟨rW, p0⟩] : List (View.Piece (Elt F) S1024x1024 .f32)), y ∈ pc.1.set :=
  View.cover_of_tiled [⟨rW, p0⟩] S1024x1024.size (by rfl) y

/-! ## The body's triple -/

set_option maxHeartbeats 1000000 in
/-- On whole staging buffers, the three inputs' at contents `w`, `b`, `a` and the output's at anything, the body runs
    to the continuation with the inputs' as they were and the output's at `foldBlk w b a`. -/
theorem fold_triple (c : Dev nD) (E : Set ℕ) (i : grid0.Coords)
    (arg2 : Memref sig .tc .vmem S1024x1024 .f32) (harg2 : arg2.IsWhole) (arg3 : Memref sig .tc .vmem S1024x16 .f32) (harg3 : arg3.IsWhole)
    (arg4 : Memref sig .tc .vmem S16x1024 .f32) (harg4 : arg4.IsWhole) (arg5 : Memref sig .tc .vmem S1024x1024 .f32) (harg5 : arg5.IsWhole)
    (w : Vec F S1024x1024 .f32) (b : Vec F S1024x16 .f32) (a : Vec F S16x1024 .f32) (K : PUnit → sProp 𝕄) :
    iprop(owns (c : Thread nD τ) arg2 fullShare w ∗ owns (c : Thread nD τ) arg3 fullShare b ∗ owns (c : Thread nD τ) arg4 fullShare a
        ∗ (∃ d, owns (c : Thread nD τ) arg5 fullShare d)
        ∗ (iprop(owns (c : Thread nD τ) arg2 fullShare w ∗ owns (c : Thread nD τ) arg3 fullShare b ∗ owns (c : Thread nD τ) arg4 fullShare a
            ∗ owns (c : Thread nD τ) arg5 fullShare (foldBlk w b a)) -∗ K ⟨⟩))
      ⊢ wp frame (wpE (defs₀ (F := F)) Variants.none c none) E (cc0__weff_kernel i arg2 harg2 arg3 harg3 arg4 harg4 arg5 harg5) K := by
  simp only [cc0__weff_kernel_eq_skeleton]; unfold cc0__weff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (foldCover _)

/-! ## The proof data -/

/-- The first region's proof data on core `c`. -/
def dat0 (c : Dev nD) : Dat τ (Elt F) Unit ℕ (UR sig nD τ) ℕ cfg0 c where
  A w := V c (Pipeline.arrRef spec0 w)
  after w t := match w with
    | ⟨0, _⟩ => wblk0 V c 0 t
    | ⟨1, _⟩ => wblk0 V c 1 t
    | ⟨2, _⟩ => wblk0 V c 2 t
    | ⟨3, _⟩ => foldBlk (wblk0 V c 0 t) (wblk0 V c 1 t) (wblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = wblk0 V c 0 t := by dsimp only [dat0]
theorem after0_1 (c : Dev nD) (t : Fin cfg0.N) : (dat0 V c).after 1 t = wblk0 V c 1 t := by dsimp only [dat0]
theorem after0_2 (c : Dev nD) (t : Fin cfg0.N) : (dat0 V c).after 2 t = wblk0 V c 2 t := by dsimp only [dat0]
theorem after0_3 (c : Dev nD) (t : Fin cfg0.N) :
    (dat0 V c).after 3 t = foldBlk (wblk0 V c 0 t) (wblk0 V c 1 t) (wblk0 V c 2 t) := by dsimp only [dat0]

theorem before0_0 (c : Dev nD) (t : Fin cfg0.N) (d) : (dat0 V c).before 0 t d = wblk0 V c 0 t :=
  before0_0_of V (dat0 V c) (A_eq0 V c 0) (after0_0 V c) t d
theorem before0_1 (c : Dev nD) (t : Fin cfg0.N) (d) : (dat0 V c).before 1 t d = wblk0 V c 1 t :=
  before0_1_of V (dat0 V c) (A_eq0 V c 1) (after0_1 V c) t d
theorem before0_2 (c : Dev nD) (t : Fin cfg0.N) (d) : (dat0 V c).before 2 t d = wblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (fold_triple c Set.univ _ _ _ _ _ _ _ _ _ (wblk0 V c 0 t) (wblk0 V c 1 t) (wblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point of the first region. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1Runs.lean ====
/-
  The second region: the product against the folded weight, accumulated over the contraction's four blocks. At grid
  point (i, j, k) the body resets its 1024 × 1024 accumulator when k = 0, adds the product of x's block (i, k) with the
  transpose of the folded weight's block (j, k), and when k = 3 stores the accumulator plus the bias's block j into the
  output block (i, j). The accumulator is a scratch buffer of the kernel's own, carried from point to point; the output
  window is touched only at k = 3 and written back only there.

  This module: the two conditions in closed form over the grid, where the output window is idle, the region invariant
  with the accumulator split out of the scoped rest, and the body's triple in each of the three cases
  (first block: k = 0; middle blocks: k = 1, 2; last block: k = 3).
-/
import proofs.«155412_j75548474736691_1_alg».proof.Proof.Gen.KernelIdeal.Launch
import proofs.«155412_j75548474736691_1_alg».proof.Proof.Gen.KernelIdeal.Skeleton
import proofs.«155412_j75548474736691_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two conditions -/

/-- "This is the contraction's first block" (k = 0), as the body computes it from the grid coordinates. -/
abbrev isFirst (i : grid1.Coords) : Prop := (Scalar.cmpi .ne (Scalar.extui (Scalar.cmpi .eq (BitVec.ofNat 32 (i 2).val) 0#32)) 0#32) = 1#1
/-- It holds at the points ≡ 0 (mod 4): the contraction axis is the grid's fastest. -/
theorem isFirst_iff : ∀ t : Fin cfg1.N, isFirst (grid1.coords t) ↔ t.val % 4 = 0 :=
  (by decide +kernel : ∀ t : Fin grid1.N, isFirst (grid1.coords t) ↔ t.val % 4 = 0)

/-- "This is the contraction's last block" (k = 3). -/
abbrev isLast (i : grid1.Coords) : Prop := k1_cond2 i = 1#1
/-- It holds at the points ≡ 3 (mod 4). -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Before the last block the output window is idle, -/
theorem idle1_3 : ∀ t : Fin cfg1.N, ¬isLast (grid1.coords t) → cfg1.idle 3 (grid1.coords t) = true := by decide +kernel
/-- and is not written back; -/
theorem noFlush1_3 : ∀ t : Fin cfg1.N, ¬isLast (grid1.coords t) → (cfg1.win 3).flush t = false := by decide +kernel
/-- at the last block it is live. -/
theorem live1_3 : ∀ t : Fin cfg1.N, isLast (grid1.coords t) → cfg1.idle 3 (grid1.coords t) = false := by decide +kernel

/-! ## The staging memrefs and the accumulator -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev accM : Memref sig .tc .vmem S1024x1024 .f32 := Memref.whole cc1_scratch0

/-- The class's region invariant with the accumulator named: the accumulator at some contents, the other scoped
    buffers no window of this region stages at some contents each, the generator register at some state. -/
theorem PhiA1_eq (c : Dev nD) :
    (Pipeline.ΦA spec1 c : sProp 𝕄)
      = iprop(iprop((∃ d, owns (c : Thread nD τ) accM fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [accM, owns_whole, bigSepL]
  try rfl

/-! ## Whole-buffer stores read back -/

abbrev rAcc : Rect S1024x1024 := Rect.unit (s := S1024x1024) ![0, 0] S1024x1024.size inb_S1024x1024_S1024x1024_0_0
abbrev rBias : Rect S1x1024 := Rect.unit (s := S1x1024) ![0, 0] S1x1024.size inb_S1x1024_S1x1024_0_0

theorem zero2 : (![0, 0] : Fin S1024x1024.rank → Nat) = fun _ => 0 := by
  funext a; match a with | ⟨0, _⟩ => rfl | ⟨1, _⟩ => rfl
theorem zero2b : (![0, 0] : Fin S1x1024.rank → Nat) = fun _ => 0 := by
  funext a; match a with | ⟨0, _⟩ => rfl | ⟨1, _⟩ => rfl

/-- A buffer whose LAST store was of the whole buffer reads back that store's payload, whatever came before. -/
theorem read_after_whole_store {κ : Kind} {sp : Space} (v : View sig κ sp S1024x1024 .f32) (f : v.ty.Contents (Elt F))
    (w : Vec F S1024x1024 .f32) (L : List (View.Piece (Elt F) S1024x1024 .f32)) :
    v.read (Elt F) (v.writes (Elt F) f (⟨rAcc, w⟩ :: L)) = w := by
  rw [View.read_writes_eq_canon _ _ _ (fun y => ⟨_, List.mem_cons_self, View.mem_set_unit_zero zero2 inb_S1024x1024_S1024x1024_0_0 y⟩)]
  exact View.canon_cons_unit_zero zero2 inb_S1024x1024_S1024x1024_0_0 w L

/-! ## The body's triple, case by case -/

set_option maxHeartbeats 1000000 in
/-- FIRST BLOCK (k = 0). The inputs' buffers at `x`, `w`, `bb`; the output's, idle here, at `o` and handed back
    untouched; the accumulator at anything. The body leaves the accumulator at the product added to the zero it was
    reset to. -/
theorem run_first (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : isFirst i) (h1 : ¬isLast i)
    (x w : Vec F S1024x1024 .f32) (bb : Vec F S1x1024 .f32) (o : Vec F S1024x1024 .f32) (K : PUnit → sProp 𝕄) :
    iprop(owns (c : Thread nD τ) arg3 fullShare x ∗ owns (c : Thread nD τ) arg4 fullShare w ∗ owns (c : Thread nD τ) arg5 fullShare bb
        ∗ owns (c : Thread nD τ) arg6 fullShare o ∗ (∃ d, owns (c : Thread nD τ) arg7 fullShare d)
        ∗ (iprop(owns (c : Thread nD τ) arg3 fullShare x ∗ owns (c : Thread nD τ) arg4 fullShare w ∗ owns (c : Thread nD τ) arg5 fullShare bb
            ∗ owns (c : Thread nD τ) arg6 fullShare o ∗ owns (c : Thread nD τ) arg7 fullShare (k1_pay2 x w (k1_pay1 (F := F)))) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

set_option maxHeartbeats 1000000 in
/-- MIDDLE BLOCKS (k = 1, 2). As before, the accumulator now at what the point before left, `s`: the body adds this
    block's product to it. -/
theorem run_mid (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : ¬isFirst i) (h1 : ¬isLast i)
    (x w : Vec F S1024x1024 .f32) (bb : Vec F S1x1024 .f32) (o : Vec F S1024x1024 .f32) (s : Vec F S1024x1024 .f32) (K : PUnit → sProp 𝕄) :
    iprop(owns (c : Thread nD τ) arg3 fullShare x ∗ owns (c : Thread nD τ) arg4 fullShare w ∗ owns (c : Thread nD τ) arg5 fullShare bb
        ∗ owns (c : Thread nD τ) arg6 fullShare o ∗ owns (c : Thread nD τ) arg7 fullShare s
        ∗ (iprop(owns (c : Thread nD τ) arg3 fullShare x ∗ owns (c : Thread nD τ) arg4 fullShare w ∗ owns (c : Thread nD τ) arg5 fullShare bb
            ∗ owns (c : Thread nD τ) arg6 fullShare o ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

set_option maxHeartbeats 1000000 in
/-- LAST BLOCK (k = 3). The accumulator at `s`, the output's buffer at anything: the body adds this block's product,
    then stores the sum plus the bias's block, broadcast down the rows, into the output's buffer. -/
theorem run_last (c : Dev nD) (E : Set ℕ) (i : grid1.Coords)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole) (h0 : ¬isFirst i) (h1 : isLast i)
    (x w : Vec F S1024x1024 .f32) (bb : Vec F S1x1024 .f32) (s : Vec F S1024x1024 .f32) (K : PUnit → sProp 𝕄) :
    iprop(owns (c : Thread nD τ) arg3 fullShare x ∗ owns (c : Thread nD τ) arg4 fullShare w ∗ owns (c : Thread nD τ) arg5 fullShare bb
        ∗ (∃ d, owns (c : Thread nD τ) arg6 fullShare d) ∗ owns (c : Thread nD τ) arg7 fullShare s
        ∗ (iprop(owns (c : Thread nD τ) arg3 fullShare x ∗ owns (c : Thread nD τ) arg4 fullShare w ∗ owns (c : Thread nD τ) arg5 fullShare bb
            ∗ owns (c : Thread nD τ) arg6 fullShare (k1_pay3 (k1_pay2 x w s) bb) ∗ owns (c : Thread nD τ) arg7 fullShare (k1_pay2 x w s)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact h0 | exact h1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_after_whole_store _ _ _ _).trans ?_
    sl_unfold_words
    simp only [View.readAt_eq_ld, View.ld_unit_zero (S := S1024x1024) zero2, View.ld_unit_zero (S := S1x1024) zero2b, View.readCov_unit_zero (S := S1024x1024) _ zero2]
  iexists _; isplitr
  swap; · iexact H7
  ipureintro
  refine (read_after_whole_store _ _ _ _).trans ?_
  sl_unfold_words
  simp only [View.readAt_eq_ld, View.ld_unit_zero (S := S1024x1024) zero2, View.readCov_unit_zero (S := S1024x1024) _ zero2]

end Cert.KernelIdeal.Frm

end
-- ==== Proof.KI.Region1.lean ====
/-
  The second region, continued: what the accumulator holds after each point, the region invariant that tracks it, the
  proof data, and the body's obligation at every point.

  The contraction axis is the grid's fastest, so the points come in runs of four: a point ≡ 0 (mod 4) resets the
  accumulator and adds the first block's product, the next three add theirs to what the point before left, and the
  point ≡ 3 (mod 4) also stores accumulator plus bias into the output block, which is written back only there.
  * `wblk1 V c w t`    — window `w`'s block at point `t`, read off its array as the region finds it;
  * `accAfter V c n`   — the accumulator after point `n`, by recursion inside the run of four;
  * `outBlk V c t`     — the output's staging buffer after a last-block point;
  * `PhiAcc V c n`     — the region invariant before point `n`: before the first the class's (the accumulator at
                         anything), afterwards the accumulator at `accAfter (n - 1)`, the other scoped buffers and the
                         generator register as they are;
  * `dat1`, `body_obligation1`, `hin1`, `hout1`.
-/
import proofs.«155412_j75548474736691_1_alg».proof.Proof.KI.Region1Runs

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def wblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the one found and whose body leaves the block in place: x's window, -/
theorem before1_0_of {c : Dev nD} (dat : Dat τ (Elt F) Unit ℕ (UR sig nD τ) ℕ cfg1 c) (hA : dat.A 0 = V c (Pipeline.arrRef spec1 0))
    (hafter : ∀ t, dat.after 0 t = wblk1 V c 0 t) (t : Fin cfg1.N) (d) : dat.before 0 t d = wblk1 V c 0 t :=
  (dat.before_in_eq_fetched 0 rfl (fun _ => rfl) (fun _ _ _ => rfl) (fun t => by rw [hafter]; unfold Dat.blockOf wblk1; rw [hA]; try rfl) t d).trans
    (by unfold Dat.fetched Dat.blockOf wblk1; rw [hA]; try rfl)
/-- the folded weight's, -/
theorem before1_1_of {c : Dev nD} (dat : Dat τ (Elt F) Unit ℕ (UR sig nD τ) ℕ cfg1 c) (hA : dat.A 1 = V c (Pipeline.arrRef spec1 1))
    (hafter : ∀ t, dat.after 1 t = wblk1 V c 1 t) (t : Fin cfg1.N) (d) : dat.before 1 t d = wblk1 V c 1 t :=
  (dat.before_in_eq_fetched 1 rfl (fun _ => rfl) (fun _ _ _ => rfl) (fun t => by rw [hafter]; unfold Dat.blockOf wblk1; rw [hA]; try rfl) t d).trans
    (by unfold Dat.fetched Dat.blockOf wblk1; rw [hA]; try rfl)
/-- and the bias's (fetched only at the first point of each run of four: its block index does not move inside a run). -/
theorem before1_2_of {c : Dev nD} (dat : Dat τ (Elt F) Unit ℕ (UR sig nD τ) ℕ cfg1 c) (hA : dat.A 2 = V c (Pipeline.arrRef spec1 2))
    (hafter : ∀ t, dat.after 2 t = wblk1 V c 2 t) (t : Fin cfg1.N) (d) : dat.before 2 t d = wblk1 V c 2 t :=
  (dat.before_in_eq_fetched 2 rfl (fun _ => rfl) (fun _ _ _ => rfl) (fun t => by rw [hafter]; unfold Dat.blockOf wblk1; rw [hA]; try rfl) t d).trans
    (by unfold Dat.fetched Dat.blockOf wblk1; rw [hA]; try rfl)

/-! ## The accumulator, point by point -/

/-- The accumulator after point `n`: at the first point of a run of four the block product added to the zero it was
    reset to, otherwise the block product added to what the point before left. -/
def accAfter (c : Dev nD) : (n : ℕ) → n < cfg1.N → Vec F S1024x1024 .f32
  | 0, hn => k1_pay2 (wblk1 V c 0 ⟨0, hn⟩) (wblk1 V c 1 ⟨0, hn⟩) (k1_pay1 (F := F))
  | n + 1, hn =>
    if (n + 1) % 4 = 0 then k1_pay2 (wblk1 V c 0 ⟨n + 1, hn⟩) (wblk1 V c 1 ⟨n + 1, hn⟩) (k1_pay1 (F := F))
    else k1_pay2 (wblk1 V c 0 ⟨n + 1, hn⟩) (wblk1 V c 1 ⟨n + 1, hn⟩) (accAfter c n (Nat.lt_of_succ_lt hn))

theorem accAfter_first (c : Dev nD) (t : Fin cfg1.N) (h : t.val % 4 = 0) :
    accAfter V c t.val t.isLt = k1_pay2 (wblk1 V c 0 t) (wblk1 V c 1 t) (k1_pay1 (F := F)) := by
  obtain ⟨n, hn⟩ := t
  cases n with
  | zero => exact rfl
  | succ n => exact (if_pos h).trans rfl

theorem accAfter_next (c : Dev nD) (t : Fin cfg1.N) (h : ¬t.val % 4 = 0) :
    accAfter V c t.val t.isLt
      = k1_pay2 (wblk1 V c 0 t) (wblk1 V c 1 t) (accAfter V c (t.val - 1) (Nat.lt_of_le_of_lt (Nat.sub_le _ _) t.isLt)) := by
  obtain ⟨n, hn⟩ := t
  cases n with
  | zero => exact absurd (Nat.zero_mod _) h
  | succ n => exact (if_neg h).trans rfl

/-- The output's staging buffer after a last-block point: the accumulator plus the bias's block down the rows. -/
def outBlk (c : Dev nD) (t : Fin cfg1.N) : Vec F S1024x1024 .f32 :=
  k1_pay3 (accAfter V c t.val t.isLt) (wblk1 V c 2 t)

/-! ## The region invariant -/

/-- Before point `n`. -/
def PhiAcc (c : Dev nD) : (n : ℕ) → n ≤ cfg1.N → sProp 𝕄
  | 0, _ => Pipeline.ΦA spec1 c
  | n + 1, hn => iprop(iprop(owns (c : Thread nD τ) accM fullShare (accAfter V c n hn) ∗ Pipeline.scopedRestBut (Ix := Unit) (Name := ℕ) (U := UR sig nD τ) (Lvl := ℕ) (Val := Elt F) spec1 c [cc1_scratch0]) ∗ (∃ r, prngReg c r))

theorem PhiAcc_zero (c : Dev nD) (n : ℕ) (h : n ≤ cfg1.N) (hz : n = 0) : PhiAcc V c n h = Pipeline.ΦA spec1 c := by
  subst hz; rfl

theorem PhiAcc_succ (c : Dev nD) (n : ℕ) (hn : n < cfg1.N) :
    PhiAcc V c (n + 1) hn = iprop(iprop(owns (c : Thread nD τ) accM fullShare (accAfter V c n hn) ∗ Pipeline.scopedRestBut (Ix := Unit) (Name := ℕ) (U := UR sig nD τ) (Lvl := ℕ) (Val := Elt F) spec1 c [cc1_scratch0]) ∗ (∃ r, prngReg c r)) := rfl

theorem PhiAcc_pos (c : Dev nD) (n : ℕ) (h : n ≤ cfg1.N) (hz : n ≠ 0) :
    PhiAcc V c n h = iprop(iprop(owns (c : Thread nD τ) accM fullShare (accAfter V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The second region's proof data on core `c`: the arrays as found; after each point the inputs' buffers at their
    blocks and the output's at `outBlk` (consulted only at last-block points: elsewhere the window is idle and not
    written back); the invariant `PhiAcc`; nothing owed; full shares. -/
def dat1 (c : Dev nD) : Dat τ (Elt F) Unit ℕ (UR sig nD τ) ℕ cfg1 c where
  A w := V c (Pipeline.arrRef spec1 w)
  after w t := match w with
    | ⟨0, _⟩ => wblk1 V c 0 t
    | ⟨1, _⟩ => wblk1 V c 1 t
    | ⟨2, _⟩ => wblk1 V c 2 t
    | ⟨3, _⟩ => outBlk V c t
  Φ t := PhiAcc V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiAcc V c t.val (Nat.le_of_lt t.isLt) := by
  dsimp only [dat1]; simp only [Fin.coe_castSucc]

theorem after1_0 (c : Dev nD) (t : Fin cfg1.N) : (dat1 V c).after 0 t = wblk1 V c 0 t := by dsimp only [dat1]
theorem after1_1 (c : Dev nD) (t : Fin cfg1.N) : (dat1 V c).after 1 t = wblk1 V c 1 t := by dsimp only [dat1]
theorem after1_2 (c : Dev nD) (t : Fin cfg1.N) : (dat1 V c).after 2 t = wblk1 V c 2 t := by dsimp only [dat1]
theorem after1_3 (c : Dev nD) (t : Fin cfg1.N) : (dat1 V c).after 3 t = outBlk V c t := by dsimp only [dat1]

theorem before1_0 (c : Dev nD) (t : Fin cfg1.N) (d) : (dat1 V c).before 0 t d = wblk1 V c 0 t :=
  before1_0_of V (dat1 V c) (A_eq1 V c 0) (after1_0 V c) t d
theorem before1_1 (c : Dev nD) (t : Fin cfg1.N) (d) : (dat1 V c).before 1 t d = wblk1 V c 1 t :=
  before1_1_of V (dat1 V c) (A_eq1 V c 1) (after1_1 V c) t d
theorem before1_2 (c : Dev nD) (t : Fin cfg1.N) (d) : (dat1 V c).before 2 t d = wblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's place in its run of four says which case
    it is in; the invariant hands over the accumulator at what the point before left (at anything before the very
    first point) and takes it back at this point's contents; before the last block the output's buffer goes back as
    it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiAcc V c (t.val + 1) t.isLt from rfl, PhiAcc_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  have hN : t.val < 128 := lt_of_lt_of_eq t.isLt (show cfg1.N = 128 from N_1)
  by_cases hF : t.val % 4 = 0
  · have hL : ¬t.val % 4 = 3 := by omega
    have hl : ¬isLast (grid1.coords t) := fun h => hL ((isLast_iff t).mp h)
    rw [Dat.leavesExact_idle (dat1 V c) 3 t (idle1_3 t hl) (noFlush1_3 t hl)]
    rw [accAfter_first V c t hF]
    by_cases hz : t.val = 0
    · rw [Phi1_castSucc V c t, PhiAcc_zero V c _ _ hz, PhiA1_eq]
      iintro ⟨⟨⟨HS, HR⟩, Hg⟩, Ho, ⟨%d0, H0⟩, ⟨%d1, H1⟩, ⟨%d2, H2⟩, ⟨%d3, H3⟩⟩
      iapply (run_first c Set.univ _ _ _ _ _ _ _ _ _ _ _ ((isFirst_iff t).mpr hF) hl (wblk1 V c 0 t) (wblk1 V c 1 t) (wblk1 V c 2 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi1_castSucc V c t, PhiAcc_pos V c _ _ hz]
      iintro ⟨⟨⟨HS, HR⟩, Hg⟩, Ho, ⟨%d0, H0⟩, ⟨%d1, H1⟩, ⟨%d2, H2⟩, ⟨%d3, H3⟩⟩
      iapply (run_first c Set.univ _ _ _ _ _ _ _ _ _ _ _ ((isFirst_iff t).mpr hF) hl (wblk1 V c 0 t) (wblk1 V c 1 t) (wblk1 V c 2 t) _ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hf : ¬isFirst (grid1.coords t) := fun h => hF ((isFirst_iff t).mp h)
    have hz : t.val ≠ 0 := fun h => hF (by rw [h])
    rw [accAfter_next V c t hF]
    rw [Phi1_castSucc V c t, PhiAcc_pos V c _ _ hz]
    by_cases hL : t.val % 4 = 3
    · have hl : isLast (grid1.coords t) := (isLast_iff t).mpr hL
      rw [show (dat1 V c).leavesExact 3 t = owns (c : Thread nD τ) (ms1_3 t) fullShare ((dat1 V c).after 3 t) from by
        unfold Dat.leavesExact; rw [live1_3 t hl], after1_3]
      unfold outBlk
      rw [accAfter_next V c t hF]
      iintro ⟨⟨⟨HS, HR⟩, Hg⟩, Ho, ⟨%d0, H0⟩, ⟨%d1, H1⟩, ⟨%d2, H2⟩, ⟨%d3, H3⟩⟩
      iapply (run_last c Set.univ _ _ _ _ _ _ _ _ _ _ _ hf hl (wblk1 V c 0 t) (wblk1 V c 1 t) (wblk1 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hl : ¬isLast (grid1.coords t) := fun h => hL ((isLast_iff t).mp h)
      rw [Dat.leavesExact_idle (dat1 V c) 3 t (idle1_3 t hl) (noFlush1_3 t hl)]
      iintro ⟨⟨⟨HS, HR⟩, Hg⟩, Ho, ⟨%d0, H0⟩, ⟨%d1, H1⟩, ⟨%d2, H2⟩, ⟨%d3, H3⟩⟩
      iapply (run_mid c Set.univ _ _ _ _ _ _ _ _ _ _ _ hf hl (wblk1 V c 0 t) (wblk1 V c 1 t) (wblk1 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body's obligation at every point of the second region. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiAcc V c 0 (Nat.zero_le _) from rfl, PhiAcc_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiAcc V c (Fin.last cfg1.N).val (Nat.le_of_lt_succ (Fin.last cfg1.N).isLt) from rfl,
    PhiAcc_pos V c _ _ (by rw [Fin.val_last]; have : cfg1.N = 128 := N_1; omega), PhiA1_eq]
  iintro ⟨⟨HS, HR⟩, Hg⟩
  isplitl [HS HR]
  · isplitl [HS]
    · iexists _; iexact HS
    iexact HR
  iexact Hg

end Cert.KernelIdeal.Frm

end
-- ==== Proof.KI.Run.lean ====
/-
  The whole program's run. @main is: the weight-fold region; two reshapes on the host (x to [8192, 4096], the bias to
  [1, 4096]); the product region; one reshape of its result to [4, 2048, 4096].

  The core's unscoped buffers are followed from launch to return as valuations `Bd0 … Bd4` (the launch memory; after
  the first region, its arrays at what its write-backs leave; after the host reshapes; after the second region;
  after the last reshape). Each region is entered from "every unscoped buffer at the boundary's valuation, the
  generator register at some state, nothing owed" and left at the next; the regions' proof data are read at their
  entry valuations. `run_main`: every weakly fair execution of @main terminates, and every unscoped buffer ends at
  `Bd4` — from which both the frame (the arguments are never written) and the result's value are read.
-/
import proofs.«155412_j75548474736691_1_alg».proof.Proof.KI.Region0
import proofs.«155412_j75548474736691_1_alg».proof.Proof.KI.Region1

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev Bd0 : Dev nD → Valuation τ sig (Elt F) := fun c b => m (c, b)
/-- The same read at the TensorCore's references: what the first region's proof data take. -/
abbrev Vin0 : (c : Dev nD) → (b : Ref sig .tc) → Buf (Elt F) ((c : Thread nD τ).loc b) := fun c b => Bd0 m c b
/-- After the first region: its arrays at what the write-backs leave, every other buffer as entered. -/
def Bd1 (c : Dev nD) : Valuation τ sig (Elt F) :=
  Pipeline.withArrays spec0 c (Bd0 m c) fun w => (dat0 (Vin0 m) c).arrAt w cfg0.N
theorem Bd1_arr (c : Dev nD) (w : Fin cfg0.W) :
    Bd1 m c (Proc.devRef .tc (Pipeline.arrRef spec0 w)) = (dat0 (Vin0 m) c).arrAt w cfg0.N := by
  unfold Bd1; exact Pipeline.withArrays_arr spec0 launch0.win.arr_inj c _ _ w
theorem Bd1_of_ne (c : Dev nD) (b : Ref sig .tc) (hb : ∀ w, Pipeline.arrRef spec0 w ≠ b) :
    Bd1 m c (Proc.devRef .tc b) = Bd0 m c (Proc.devRef .tc b) := by
  unfold Bd1; exact Pipeline.withArrays_of_ne spec0 c _ _ b hb
abbrev Vout0 : (c : Dev nD) → (b : Ref sig .tc) → Buf (Elt F) ((c : Thread nD τ).loc b) := fun c b => Bd1 m c b
theorem exitArr0 (c : Dev nD) (w : Fin cfg0.W) : (dat0 (Vin0 m) c).arrAt w cfg0.N = Vout0 m c (Pipeline.arrRef spec0 w) :=
  (Bd1_arr m c w).symm
theorem exitRest0 (c : Dev nD) : ∀ b, b ∉ Finset.univ.image (Pipeline.arrRef spec0) → Vout0 m c b = Vin0 m c b :=
  fun b hb => Bd1_of_ne m c b fun w e => hb (Finset.mem_image.mpr ⟨w, Finset.mem_univ _, e⟩)

/-- After the two host reshapes: the second region's entry. -/
abbrev Bd2 : Dev nD → Valuation τ sig (Elt F) := fun c => StableHlo.after hostOps1 (Bd1 m c)
abbrev Vin1 : (c : Dev nD) → (b : Ref sig .tc) → Buf (Elt F) ((c : Thread nD τ).loc b) := fun c b => Bd2 m c b
/-- After the second region. -/
def Bd3 (c : Dev nD) : Valuation τ sig (Elt F) :=
  Pipeline.withArrays spec1 c (Bd2 m c) fun w => (dat1 (Vin1 m) c).arrAt w cfg1.N
theorem Bd3_arr (c : Dev nD) (w : Fin cfg1.W) :
    Bd3 m c (Proc.devRef .tc (Pipeline.arrRef spec1 w)) = (dat1 (Vin1 m) c).arrAt w cfg1.N := by
  unfold Bd3; exact Pipeline.withArrays_arr spec1 launch1.win.arr_inj c _ _ w
theorem Bd3_of_ne (c : Dev nD) (b : Ref sig .tc) (hb : ∀ w, Pipeline.arrRef spec1 w ≠ b) :
    Bd3 m c (Proc.devRef .tc b) = Bd2 m c (Proc.devRef .tc b) := by
  unfold Bd3; exact Pipeline.withArrays_of_ne spec1 c _ _ b hb
abbrev Vout1 : (c : Dev nD) → (b : Ref sig .tc) → Buf (Elt F) ((c : Thread nD τ).loc b) := fun c b => Bd3 m c b
theorem exitArr1 (c : Dev nD) (w : Fin cfg1.W) : (dat1 (Vin1 m) c).arrAt w cfg1.N = Vout1 m c (Pipeline.arrRef spec1 w) :=
  (Bd3_arr m c w).symm
theorem exitRest1 (c : Dev nD) : ∀ b, b ∉ Finset.univ.image (Pipeline.arrRef spec1) → Vout1 m c b = Vin1 m c b :=
  fun b hb => Bd3_of_ne m c b fun w e => hb (Finset.mem_image.mpr ⟨w, Finset.mem_univ _, e⟩)
/-- After the last reshape: the return. -/
abbrev Bd4 : Dev nD → Valuation τ sig (Elt F) := fun c => StableHlo.after hostOps2 (Bd3 m c)

/-! ## The proof data family and the thread state -/

/-- No pipeline has a prefetched table. -/
abbrev admT : (p : Fin 2) → (pcfgs (F := F) p).Adm := fun p => (cfgs p).toPCfg_adm
/-- Both pipelines' proof data, each at its region's entry contents. -/
def allDats : (p : Fin 2) → (c : Dev nD) → Dat τ (Elt F) Unit ℕ (UR sig nD τ) ℕ (Pipeline.pin (pcfgs (F := F)) admT p) c
  | ⟨0, _⟩ => fun c => dat0 (Vin0 m) c
  | ⟨1, _⟩ => fun c => dat1 (Vin1 m) c
abbrev 𝒱ₙ : Variants := Variants.none
/-- No core owes another anything: no level is assigned. -/
abbrev noLv : GSem nD τ sig → Finset Unit := fun _ => ∅
abbrev noLvl : GSem nD τ sig → Unit → ℕ := fun _ _ => 0
/-- What rides beside the buffers through every segment: the generator register at some state, nothing owed. -/
abbrev Rest (c : Dev nD) : sProp 𝕄 := iprop((∃ r, prngReg c r) ∗ ∃ W, owes (c : Thread nD τ) (0 : CellTallies nD τ sig Unit) W)

theorem hostOps1_noFresh : (hostOps1 : List (HloOp τ sig (Elt F))).Forall fun op => op.fresh = ∅ := by
  simp only [List.Forall]; repeat' constructor
theorem hostOps2_noFresh : (hostOps2 : List (HloOp τ sig (Elt F))).Forall fun op => op.fresh = ∅ := by
  simp only [List.Forall]; repeat' constructor

/-- A host stretch as a segment, over the unscoped references from the contents `W`, `Rest` riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ noLv noLvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
def foldSeg : Pipeline.RegionSeg (pcfgs (F := F)) admT (allDats m) () defs₀ 𝒱ₙ noLv noLvl 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ noLv noLvl 0 fun _ _ => rfl
  pre c := iprop(StableHlo.held (c : Thread nD τ) (Pipeline.ucRefs τ sig) (Bd0 m c) ∗ Rest c)
  post c := iprop(StableHlo.held (c : Thread nD τ) (Pipeline.ucRefs τ sig) (Bd1 m c) ∗ Rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admT (allDats m) launch0.win launch0.arr_whole c
      ((allDats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (allDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (allDats m) ((allDats m 0 c).share_full fun _ => rfl)
      (Vin0 m c) (Vout0 m c) ((allDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def prodSeg : Pipeline.RegionSeg (pcfgs (F := F)) admT (allDats m) () defs₀ 𝒱ₙ noLv noLvl 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ noLv noLvl 1 fun _ _ => rfl
  pre c := iprop(StableHlo.held (c : Thread nD τ) (Pipeline.ucRefs τ sig) (Bd2 m c) ∗ Rest c)
  post c := iprop(StableHlo.held (c : Thread nD τ) (Pipeline.ucRefs τ sig) (Bd3 m c) ∗ Rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admT (allDats m) launch1.win launch1.arr_whole c
      ((allDats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine _root_.Idealize.SL.BI.BIBase.Entails.trans ?_ (hin1 (Vin1 m) c)
    unfold Pipeline.ΦA
    iintro ⟨Hp, -, Hr⟩
    isplitl [Hr]; · iexact Hr
    iexact Hp
  hout c := by
    rw [Pipeline.ownSems0_none]
    refine _root_.Idealize.SL.BI.BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (allDats m) ((allDats m 1 c).share_full fun _ => rfl)
      (Vin1 m c) (Vout1 m c) ((allDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev mainSegs : List (Pipeline.Seg (pcfgs (F := F)) admT (allDats m) () defs₀ 𝒱ₙ noLv noLvl) :=
  [ .region (foldSeg m),
    .host (hostSeg hostOps1 hostOps1_sub hostOps1_noFresh (Bd1 m)),
    .region (prodSeg m),
    .host (hostSeg hostOps2 hostOps2_sub hostOps2_noFresh (Bd3 m)) ]

theorem main_is_segs (c : Dev nD) : main (F := F) c = Pipeline.Seg.run (mainSegs m) := (main_chain c).trans (by chain_rfl)

set_option backward.isDefEq.respectTransparency.types false in
/-- From any memory with zero counters every weakly fair execution of @main terminates, nothing faulting, and every
    unscoped buffer of every core ends at `Bd4`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Bd4 m c b) :=
  Pipeline.θ_run_regions_kit (pcfgs (F := F)) admT (allDats m) () cellOf_inj emb₁ defs₀ 𝒱ₙ noLv noLvl m ρ main (mainSegs m)
    (fun c Q => by rw [main_is_segs m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rest c))
    (Tₙ := fun c => iprop(StableHlo.held (c : Thread nD τ) (Pipeline.ucRefs τ sig) (Bd4 m c) ∗ ∃ r, prngReg c r))
    (hch := ⟨fun _ => .rfl, fun _ => .rfl, fun _ => .rfl, fun _ => .rfl, fun c => by
      show iprop(StableHlo.held (c : Thread nD τ) (Pipeline.ucRefs τ sig) (Bd4 m c) ∗ Rest c) ⊢ _
      iintro ⟨Hh, Hp, Ho⟩
      isplitl [Hh Hp]
      · isplitl [Hh]; · iexact Hh
        iexact Hp
      iexact Ho⟩)
    (hinit := by
      refine Pipeline.initEach noLv noLvl fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd4 m c b)
    (hfin := fun c s' => by
      iintro ⟨⟨Hh, -⟩, HSI⟩
      unfold StableHlo.held
      imodintro
      iapply (pointsTo_read_all (Pipeline.ucRefs τ sig) (fun b => (((c : Thread nD τ)).1, b)) (Bd4 m c) s')
      isplitl [Hh] <;> iassumption)
    (hQ := fun s h c => h c)

end Cert.KernelIdeal.Frm

end
-- ==== Proof.KI.Ends.lean ====
/-
  The arguments at the return. No reshape writes an argument and no region does: the first region reads the base
  weight, B and A through input windows and never sees x or the bias; the second region's arrays are the reshaped
  x, the folded weight, the reshaped bias and its result. So the valuation at the return, read at an argument's
  buffer, walks back boundary by boundary to the launch memory.
-/
import proofs.«155412_j75548474736691_1_alg».proof.Proof.KI.Run

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-- X ends as launched: no region has it as an array, and no reshape writes it. -/
theorem Bd4_arg0 (c : Dev nD) : Bd4 m c (Proc.devRef .tc main_arg0) = m ((c : Thread nD τ).loc main_arg0) :=
  calc Bd4 m c (Proc.devRef .tc main_arg0)
    _ = Bd3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg0) := Bd3_of_ne m c main_arg0 (by decide)
    _ = Bd1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg0) := Bd1_of_ne m c main_arg0 (by decide)
    _ = m ((c : Thread nD τ).loc main_arg0) := rfl

/-- The base weight ends as launched: the first region only reads it (an input window's array is never written), and no reshape writes it. -/
theorem Bd4_arg1 (c : Dev nD) : Bd4 m c (Proc.devRef .tc main_arg1) = m ((c : Thread nD τ).loc main_arg1) :=
  calc Bd4 m c (Proc.devRef .tc main_arg1)
    _ = Bd3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg1) := Bd3_of_ne m c main_arg1 (by decide)
    _ = Bd1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg1) := (Bd1_arr m c 0).trans (((dat0 (Vin0 m) c).arrAt_in 0 rfl _).trans (A_eq0 (Vin0 m) c 0))
    _ = m ((c : Thread nD τ).loc main_arg1) := rfl

/-- The bias ends as launched: no region has it as an array, and no reshape writes it. -/
theorem Bd4_arg2 (c : Dev nD) : Bd4 m c (Proc.devRef .tc main_arg2) = m ((c : Thread nD τ).loc main_arg2) :=
  calc Bd4 m c (Proc.devRef .tc main_arg2)
    _ = Bd3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg2) := Bd3_of_ne m c main_arg2 (by decide)
    _ = Bd1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg2) := Bd1_of_ne m c main_arg2 (by decide)
    _ = m ((c : Thread nD τ).loc main_arg2) := rfl

/-- A ends as launched: the first region only reads it (an input window's array is never written), and no reshape writes it. -/
theorem Bd4_arg3 (c : Dev nD) : Bd4 m c (Proc.devRef .tc main_arg3) = m ((c : Thread nD τ).loc main_arg3) :=
  calc Bd4 m c (Proc.devRef .tc main_arg3)
    _ = Bd3 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg3) := Bd3_of_ne m c main_arg3 (by decide)
    _ = Bd1 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg3) := (Bd1_arr m c 2).trans (((dat0 (Vin0 m) c).arrAt_in 2 rfl _).trans (A_eq0 (Vin0 m) c 2))
    _ = m ((c : Thread nD τ).loc main_arg3) := rfl

/-- B ends as launched: the first region only reads it (an input window's array is never written), and no reshape writes it. -/
theorem Bd4_arg4 (c : Dev nD) : Bd4 m c (Proc.devRef .tc main_arg4) = m ((c : Thread nD τ).loc main_arg4) :=
  calc Bd4 m c (Proc.devRef .tc main_arg4)
    _ = Bd3 m c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd2 m c (Proc.devRef .tc main_arg4) := Bd3_of_ne m c main_arg4 (by decide)
    _ = Bd1 m c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Bd0 m c (Proc.devRef .tc main_arg4) := (Bd1_arr m c 1).trans (((dat0 (Vin0 m) c).arrAt_in 1 rfl _).trans (A_eq0 (Vin0 m) c 1))
    _ = m ((c : Thread nD τ).loc main_arg4) := rfl

end Cert.KernelIdeal.Frm

end
-- ==== Proof.Spec.lean ====
/-
  The specification both programs are compared against, index by index, over the extended reals.

  Inputs: x : [4, 2048, 4096], W : [4096, 4096], b : [4096], A : [16, 4096], B : [4096, 16]; the scale is the
  literal 2.0 (alpha / r = 32 / 16) on both sides, kept as its word.

  * `weff`  — the folded weight  W[o, i] + 2 · Σ_r B[o, r] · A[r, i]   (the low-rank update folded into the base weight);
  * `Gk`    — the kernel's form   (Σ_i x[p, q, i] · weff[o, i]) + b[o];
  * `Gr`    — the reference's form ((Σ_i x[p, q, i] · W[o, i]) + b[o]) + 2 · Σ_r (Σ_i x[p, q, i] · A[r, i]) · B[o, r].

  Over the reals the two agree by distributivity and an exchange of the two finite sums; on the extended reals that
  needs every entry finite (`IsReal`).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 2048, 4096]⟩
abbrev SW : Shape := ⟨2, ![4096, 4096]⟩
abbrev Sb : Shape := ⟨1, ![4096]⟩
abbrev SA : Shape := ⟨2, ![16, 4096]⟩
abbrev SB : Shape := ⟨2, ![4096, 16]⟩

/-- The scale 2.0 as both programs spell it: the f32 word `0x40000000`. -/
def two : EReal := Ideal.ofBits .f32 0x40000000#32

/-- Every entry of an array is a real number. -/
def IsReal {ι : Type} (f : ι → EReal) : Prop := ∀ j, ∃ r : ℝ, f j = (r : EReal)

/-- The folded weight at row `o`, column `i`. -/
def weff (W : SW.Idx → EReal) (B : SB.Idx → EReal) (A : SA.Idx → EReal) (o i : Fin 4096) : EReal :=
  W (ix2 o i) + two * ∑ r : Fin 16, B (ix2 o r) * A (ix2 r i)

/-- The kernel's result at `[p, q, o]`: one contraction against the folded weight, then the bias. -/
def Gk (x : SX.Idx → EReal) (W : SW.Idx → EReal) (b : Sb.Idx → EReal) (A : SA.Idx → EReal) (B : SB.Idx → EReal)
    (p : Fin 4) (q : Fin 2048) (o : Fin 4096) : EReal :=
  (∑ i : Fin 4096, x (ix3 p q i) * weff W B A o i) + b (ix1 o)

/-- The reference's result at `[p, q, o]`: the base product plus bias, plus the scaled two-step low-rank product. -/
def Gr (x : SX.Idx → EReal) (W : SW.Idx → EReal) (b : Sb.Idx → EReal) (A : SA.Idx → EReal) (B : SB.Idx → EReal)
    (p : Fin 4) (q : Fin 2048) (o : Fin 4096) : EReal :=
  ((∑ i : Fin 4096, x (ix3 p q i) * W (ix2 o i)) + b (ix1 o))
    + two * ∑ r : Fin 16, (∑ i : Fin 4096, x (ix3 p q i) * A (ix2 r i)) * B (ix2 o r)

end Cert.Spec

end
-- ==== Proof.KI.Value0.lean ====
/-
  The first region's output array: after the region the folded weight's array holds, at row o and column i,
  W[o, i] + 2 · Σ_r B[o, r] · A[r, i] of the arrays the region found.

  * the body's block at an index: W_blk[p, q] + 2 · Σ_r B_blk[p, r] · A_blk[r, q];
  * the blocks' places: at grid point t = (t / 4, t % 4) the base weight's and the output's block is
    (t / 4, t % 4), B's is (t / 4, 0), A's is (0, t % 4), each block 1024 rows or columns wide;
  * what a point writes back is its block of the whole-array function (o, i) ↦ W[o, i] + 2 · Σ_r B[o, r] · A[r, i];
  * the sixteen blocks cover the 4096 × 4096 array.
-/
import proofs.«155412_j75548474736691_1_alg».proof.Proof.KI.Region0
import proofs.«155412_j75548474736691_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

/-! ## The body's block at an index -/

theorem hz0 : (![0, 0] : Fin 2 → Nat) = fun _ => 0 := funext fun a => by fin_cases a <;> rfl

/-- The product's left operand is read at the result's row, -/
theorem lhs_fold_0 (i : S1024x1024.Idx) (k : dot_S1024x16_S16x1024_S1024x1024_1_0_0_1_n_n.contr.Idx) :
    (dot_S1024x16_S16x1024_S1024x1024_1_0_0_1_n_n.lhsIdx i k 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- and at the contraction position; -/
theorem lhs_fold_1 (i : S1024x1024.Idx) (k : dot_S1024x16_S16x1024_S1024x1024_1_0_0_1_n_n.contr.Idx) :
    (dot_S1024x16_S16x1024_S1024x1024_1_0_0_1_n_n.lhsIdx i k 1).val = (k ⟨0, by decide⟩).val :=
  dot_S1024x16_S16x1024_S1024x1024_1_0_0_1_n_n.lhsIdx_val_of_single rfl i k
/-- the right operand at the contraction position -/
theorem rhs_fold_0 (i : S1024x1024.Idx) (k : dot_S1024x16_S16x1024_S1024x1024_1_0_0_1_n_n.contr.Idx) :
    (dot_S1024x16_S16x1024_S1024x1024_1_0_0_1_n_n.rhsIdx i k 0).val = (k ⟨0, by decide⟩).val :=
  dot_S1024x16_S16x1024_S1024x1024_1_0_0_1_n_n.rhsIdx_val_of_single rfl i k
/-- and at the result's column. -/
theorem rhs_fold_1 (i : S1024x1024.Idx) (k : dot_S1024x16_S16x1024_S1024x1024_1_0_0_1_n_n.contr.Idx) :
    (dot_S1024x16_S16x1024_S1024x1024_1_0_0_1_n_n.rhsIdx i k 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl

/-- The block product into the zero accumulator, at row p and column q, is Σ_r l[p, r] · r[r, q]. -/
theorem fold_matmul_apply {φ₁ φ₂ : FTy} (l : FVec Ideal S1024x16 φ₁) (r : FVec Ideal S16x1024 φ₂) (p q : Fin 1024) :
    matmul dot_S1024x16_S16x1024_S1024x1024_1_0_0_1_n_n none l r (constant S1024x1024 .f32 0x00000000#32) (ix2 p q)
      = ∑ k : Fin 16, l (ix2 p k) * r (ix2 k q) := by
  simp only [matmul]
  rw [Ideal.matmul_constant_zero_apply, ← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  have el : dot_S1024x16_S16x1024_S1024x1024_1_0_0_1_n_n.lhsIdx (ix2 p q) ((contrEquiv1 dot_S1024x16_S16x1024_S1024x1024_1_0_0_1_n_n 16 rfl rfl).symm k) = ix2 p k := funext fun a => Fin.ext (by
    match a with
    | ⟨0, _⟩ => exact lhs_fold_0 _ _
    | ⟨1, _⟩ => exact (lhs_fold_1 _ _).trans hk)
  have er : dot_S1024x16_S16x1024_S1024x1024_1_0_0_1_n_n.rhsIdx (ix2 p q) ((contrEquiv1 dot_S1024x16_S16x1024_S1024x1024_1_0_0_1_n_n 16 rfl rfl).symm k) = ix2 k q := funext fun a => Fin.ext (by
    match a with
    | ⟨0, _⟩ => exact (rhs_fold_0 _ _).trans hk
    | ⟨1, _⟩ => exact rhs_fold_1 _ _)
  rw [el, er]

/-- What the body leaves in the output's buffer, at row p and column q of the block. -/
theorem foldBlk_apply (w : Vec Ideal S1024x1024 .f32) (b : Vec Ideal S1024x16 .f32) (a : Vec Ideal S16x1024 .f32) (p q : Fin 1024) :
    foldBlk w b a (ix2 p q) = w (ix2 p q) + Cert.Spec.two * ∑ r : Fin 16, b (ix2 p r) * a (ix2 r q) := by
  unfold foldBlk
  rw [View.canon_unit_zero hz0]
  simp only [View.ld_unit_zero (S := S1024x1024) hz0, View.ld_unit_zero (S := S1024x16) hz0, View.ld_unit_zero (S := S16x1024) hz0]
  unfold k0_pay1
  rw [addf_apply, mulf_apply, broadcast_apply, fold_matmul_apply]
  simp only [truncf_apply]
  rfl

/-! ## The blocks' places -/

/-- The folded weight as one function of the three arrays, index by index. -/
abbrev foldArr (W : S4096x4096.Idx → EReal) (B : S4096x16.Idx → EReal) (A : S16x4096.Idx → EReal) : S4096x4096.Idx → EReal :=
  fun j => Cert.Spec.weff W B A (j 0) (j 1)

/-- If the three loaded blocks are the arrays read through placements that put block row p at array row o p and block
    column q at array column i q (B's block keeping its columns, A's its rows), the body leaves the output block's
    part of the folded weight. -/
theorem foldBlk_eq_of_places (W : S4096x4096.Idx → EReal) (B : S4096x16.Idx → EReal) (A : S16x4096.Idx → EReal)
    (w : Vec Ideal S1024x1024 .f32) (b : Vec Ideal S1024x16 .f32) (a : Vec Ideal S16x1024 .f32)
    (e3 e0 : S1024x1024.Idx → S4096x4096.Idx) (e1 : S1024x16.Idx → S4096x16.Idx) (e2 : S16x1024.Idx → S16x4096.Idx)
    (o i : Fin 1024 → Fin 4096)
    (hw : ∀ y, w y = W (e0 y)) (hb : ∀ y, b y = B (e1 y)) (ha : ∀ y, a y = A (e2 y))
    (h3 : ∀ p q, e3 (ix2 p q) = ix2 (o p) (i q))
    (h0 : ∀ p q, e0 (ix2 p q) = ix2 (o p) (i q))
    (h1 : ∀ p r, e1 (ix2 p r) = ix2 (o p) r)
    (h2 : ∀ r q, e2 (ix2 r q) = ix2 r (i q))
    (j : S1024x1024.Idx) : foldBlk w b a j = foldArr W B A (e3 j) := by
  obtain ⟨p, q, rfl⟩ : ∃ (p q : Fin 1024), j = ix2 p q := ⟨j 0, j 1, eq_ix2 j⟩
  rw [foldBlk_apply, hw, h0, h3]
  simp only [hb, ha, h1, h2]
  rfl

/-- The printed index maps, decided over the sixteen grid points. -/
theorem idx_facts0 : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = t.val % 4
    ∧ win0_3.index t (0 : Fin 2) = t.val / 4 ∧ win0_3.index t (1 : Fin 2) = t.val % 4 ∧ t.val < 16 :=
  (by decide +kernel : ∀ t : Fin grid0.N, _)

/-- Every block of the 4 × 4 arrangement is some point's. -/
theorem idx_onto0 : ∀ (q0 q1 : Fin 4), ∃ t : Fin cfg0.N, win0_3.index t = ![q0.val, q1.val] :=
  (by decide +kernel : ∀ (q0 q1 : Fin 4), ∃ t : Fin grid0.N, win0_3.index t = ![q0.val, q1.val])

/-! ## What a point writes back, and the cover -/

section
variable (V : (c : Dev nD) → (b : Ref sig .tc) → Buf (Elt Ideal) ((c : Thread nD τ).loc b))

/-- What point t writes back is block t of the folded weight of the arrays as the region finds them. -/
theorem flushed0_3_eq (c : Dev nD) (t : Fin cfg0.N) :
    (dat0 (F := Ideal) V c).flushed 3 t
      = ((cfg0.win 3).blk t).view.read (Elt Ideal) (foldArr (V c main_arg1) (V c main_arg4) (V c main_arg3)) := by
  show (cfg0.win 3).cut (grid0.coords t) ((dat0 (F := Ideal) V c).after 3 t) = _
  rw [after0_3]
  obtain ⟨e00, e01, e10, e11, e20, e21, e30, e31, ht⟩ := idx_facts0 t
  funext j
  exact foldBlk_eq_of_places (V c main_arg1) (V c main_arg4) (V c main_arg3)
    (wblk0 V c 0 t) (wblk0 V c 1 t) (wblk0 V c 2 t)
    ((cfg0.win 3).blk t).view.emb ((cfg0.win 0).blk t).view.emb ((cfg0.win 1).blk t).view.emb ((cfg0.win 2).blk t).view.emb
    (fun p => ⟨t.val / 4 * 1024 + p.val, by have := p.isLt; omega⟩) (fun q => ⟨t.val % 4 * 1024 + q.val, by have := q.isLt; omega⟩)
    (fun _ => rfl) (fun _ => rfl) (fun _ => rfl)
    (fun p q => funext fun a => Fin.ext (by
      match a with
      | ⟨0, _⟩ => show win0_3.index t (0 : Fin 2) * 1024 + 1 * p.val = t.val / 4 * 1024 + p.val; omega
      | ⟨1, _⟩ => show win0_3.index t (1 : Fin 2) * 1024 + 1 * q.val = t.val % 4 * 1024 + q.val; omega))
    (fun p q => funext fun a => Fin.ext (by
      match a with
      | ⟨0, _⟩ => show win0_0.index t (0 : Fin 2) * 1024 + 1 * p.val = t.val / 4 * 1024 + p.val; omega
      | ⟨1, _⟩ => show win0_0.index t (1 : Fin 2) * 1024 + 1 * q.val = t.val % 4 * 1024 + q.val; omega))
    (fun p r => funext fun a => Fin.ext (by
      match a with
      | ⟨0, _⟩ => show win0_1.index t (0 : Fin 2) * 1024 + 1 * p.val = t.val / 4 * 1024 + p.val; omega
      | ⟨1, _⟩ => show win0_1.index t (1 : Fin 2) * 16 + 1 * r.val = r.val; omega))
    (fun r q => funext fun a => Fin.ext (by
      match a with
      | ⟨0, _⟩ => show win0_2.index t (0 : Fin 2) * 16 + 1 * r.val = r.val; omega
      | ⟨1, _⟩ => show win0_2.index t (1 : Fin 2) * 1024 + 1 * q.val = t.val % 4 * 1024 + q.val; omega))
    j

/-- An index of the array is in point t's block iff each coordinate is in the block's range on its axis. -/
theorem mem_blk0_3 (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every index of the array is in some point's block: row o, column i in block (o / 1024, i / 1024). -/
theorem cover0_3 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- After the first region the folded weight's array holds, at row o and column i, W[o,i] + 2 · Σ_r B[o,r] · A[r,i] of the arrays the region found. -/
theorem weff_value (c : Dev nD) (o i : Fin 4096) :
    (dat0 (F := Ideal) V c).arrAt 3 cfg0.N (ix2 o i) = Cert.Spec.weff (V c main_arg1) (V c main_arg4) (V c main_arg3) o i := by
  rw [(dat0 (F := Ideal) V c).arrAt_eq_of_cover 3 (foldArr (V c main_arg1) (V c main_arg4) (V c main_arg3))
    (fun t _ => flushed0_3_eq V c t) cover0_3]

end

end Cert.KernelIdeal.Frm

end
-- ==== Proof.KI.Value1.lean ====
/-
  The second region's output array: after the region it holds, at row r and column o,
  (Σ_i x2d[r, i] · weff[o, i]) + bias2d[0, o] of the arrays the region found.

  * the body's payloads at an index: the reset value is 0; one accumulation step adds Σ_j x_blk[p, j] · w_blk[q, j]
    (the product is against the transpose: both operands are contracted on their second axis); the stored block is the
    accumulator plus the bias's entry of the column;
  * a run of four points (the contraction axis is the grid's fastest) leaves, at the run's last point, the sum over the
    four blocks of the products; addition of extended reals is associative and 0 is neutral, nothing else is used;
  * the blocks' places: grid point t is (t / 16, t / 4 % 4, t % 4); x's block is (t / 16, t % 4), the folded weight's
    (t / 4 % 4, t % 4), the bias's (0, t / 4 % 4), the output's (t / 16, t / 4 % 4), each block 1024 wide on every
    axis but the bias's first;
  * regrouping: four consecutive runs of 1024 positions are the 4096 positions of the contraction;
  * what a last-block point writes back is its block of the whole-array function (r, o) ↦ the right-hand side, and the
    thirty-two last-block points' blocks cover the 8192 × 4096 array.
-/
import proofs.«155412_j75548474736691_1_alg».proof.Proof.KI.Region1
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Algebra.BigOperators.Group.Finset.Sigma
import Mathlib.Logic.Equiv.Fin.Basic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

/-! ## The whole-array function -/

/-- The product against the folded weight, plus the bias, at row r and column o. -/
def prodArr (X : S8192x4096.Idx → EReal) (Wf : S4096x4096.Idx → EReal) (b2 : S1x4096.Idx → EReal) (r : Fin 8192) (o : Fin 4096) : EReal := (∑ i : Fin 4096, X (ix2 r i) * Wf (ix2 o i)) + b2 (ix2 (0 : Fin 1) o)

/-! ## The body's payloads at an index -/

/-- The product's left operand is read at the result's row, -/
theorem lhs_mm_0 (i : S1024x1024.Idx) (k : dot_S1024x1024_S1024x1024_S1024x1024_1_1_0_0_n_n.contr.Idx) :
    (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- and at the contraction position; -/
theorem lhs_mm_1 (i : S1024x1024.Idx) (k : dot_S1024x1024_S1024x1024_S1024x1024_1_1_0_0_n_n.contr.Idx) :
    (dot_S1024x1024_S1024x1024_S1024x1024_1_1_0_0_n_n.lhsIdx i k 1).val = (k ⟨0, by decide⟩).val :=
  dot_S1024x1024_S1024x1024_S1024x1024_1_1_0_0_n_n.lhsIdx_val_of_single rfl i k
/-- the right operand at the result's column (its own row: the product is against the transpose) -/
theorem rhs_mm_0 (i : S1024x1024.Idx) (k : dot_S1024x1024_S1024x1024_S1024x1024_1_1_0_0_n_n.contr.Idx) :
    (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- and at the contraction position. -/
theorem rhs_mm_1 (i : S1024x1024.Idx) (k : dot_S1024x1024_S1024x1024_S1024x1024_1_1_0_0_n_n.contr.Idx) :
    (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The block product into the zero accumulator, at row p and column q, is Σ_j l[p, j] · r[q, j]. -/
theorem mm_matmul_apply {φ₁ φ₂ : FTy} (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ j : Fin 1024, l (ix2 p j) * r (ix2 q j) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-- The accumulator's reset value is zero everywhere. -/
theorem pay1_apply (p q : Fin 1024) : k1_pay1 (F := Ideal) (ix2 p q) = 0 := by
  unfold k1_pay1
  rw [shapeCast_self, broadcast_apply]
  exact Ideal.ofBits_zero_f32

/-- One accumulation step at row p and column q: what was there plus Σ_j x[p, j] · w[q, j]. -/
theorem pay2_apply (x w s : Vec Ideal S1024x1024 .f32) (p q : Fin 1024) :
    k1_pay2 x w s (ix2 p q) = s (ix2 p q) + ∑ j : Fin 1024, x (ix2 p j) * w (ix2 q j) := by
  unfold k1_pay2
  rw [shapeCast_self, addf_apply, mm_matmul_apply]
  simp only [truncf_apply, shapeCast_self]

/-- The stored block at row p and column q: the accumulator there plus the bias's entry of column q. -/
theorem pay3_apply (s : Vec Ideal S1024x1024 .f32) (bb : Vec Ideal S1x1024 .f32) (p q : Fin 1024) :
    k1_pay3 s bb (ix2 p q) = s (ix2 p q) + bb (ix2 (0 : Fin 1) q) := by
  unfold k1_pay3
  rw [addf_apply, shapeCast_self]
  rw [broadcastTo_apply bb broadcasts_S1x1024_S1024x1024 (ix2 p q) (ix2 (0 : Fin 1) q) (fun a => by
    match a with
    | ⟨0, _⟩ => rfl
    | ⟨1, _⟩ => rfl)]

/-! ## Regrouping the contraction -/

/-- A sum over 4096 positions is the sum over four consecutive runs of 1024. -/
theorem sum_regroup {M : Type} [AddCommMonoid M] (f : Fin 4096 → M) :
    ∑ k : Fin 4, ∑ j : Fin 1024, f ⟨1024 * k.val + j.val, by have := k.isLt; have := j.isLt; omega⟩ = ∑ i : Fin 4096, f i := by
  have h := Equiv.sum_comp (finProdFinEquiv : Fin 4 × Fin 1024 ≃ Fin (4 * 1024)) f
  rw [← h, Fintype.sum_prod_type]
  refine Finset.sum_congr rfl fun k _ => Finset.sum_congr rfl fun j _ => congrArg f (Fin.ext ?_)
  show 1024 * k.val + j.val = j.val + 1024 * k.val
  omega

/-! ## The accumulator over a run of four -/

/-- Four accumulation steps from the reset value, at row p and column q: the products summed over the four blocks. -/
theorem acc_run_apply (xs ws : Fin 4 → Vec Ideal S1024x1024 .f32) (p q : Fin 1024) :
    k1_pay2 (xs 3) (ws 3) (k1_pay2 (xs 2) (ws 2) (k1_pay2 (xs 1) (ws 1) (k1_pay2 (xs 0) (ws 0) (k1_pay1 (F := Ideal))))) (ix2 p q)
      = ∑ k : Fin 4, ∑ j : Fin 1024, xs k (ix2 p j) * ws k (ix2 q j) := by
  rw [pay2_apply, pay2_apply, pay2_apply, pay2_apply, pay1_apply, zero_add, Fin.sum_univ_four]

/-- The output as one function of the three arrays, index by index. -/
abbrev outArr (X : S8192x4096.Idx → EReal) (Wf : S4096x4096.Idx → EReal) (bias : S1x4096.Idx → EReal) : S8192x4096.Idx → EReal :=
  fun j => prodArr X Wf bias (j 0) (j 1)

/-- If the four x blocks and the four weight blocks of a run are the arrays read through placements that put block
    row p at array row ro p (x) or co p (the weight) and column j of the k-th block at array column 1024·k + j, and the
    bias block's column q at array column co q, then accumulator plus bias is the output block's part of the output. -/
theorem outBlk_eq_of_places (X : S8192x4096.Idx → EReal) (Wf : S4096x4096.Idx → EReal) (bias : S1x4096.Idx → EReal)
    (xs ws : Fin 4 → Vec Ideal S1024x1024 .f32) (bb : Vec Ideal S1x1024 .f32) (acc : Vec Ideal S1024x1024 .f32)
    (hacc : acc = k1_pay2 (xs 3) (ws 3) (k1_pay2 (xs 2) (ws 2) (k1_pay2 (xs 1) (ws 1) (k1_pay2 (xs 0) (ws 0) (k1_pay1 (F := Ideal))))))
    (e3 : S1024x1024.Idx → S8192x4096.Idx) (ex : Fin 4 → S1024x1024.Idx → S8192x4096.Idx)
    (ew : Fin 4 → S1024x1024.Idx → S4096x4096.Idx) (eb : S1x1024.Idx → S1x4096.Idx)
    (ro : Fin 1024 → Fin 8192) (co : Fin 1024 → Fin 4096)
    (hx : ∀ k y, xs k y = X (ex k y)) (hw : ∀ k y, ws k y = Wf (ew k y)) (hb : ∀ y, bb y = bias (eb y))
    (h3 : ∀ p q, e3 (ix2 p q) = ix2 (ro p) (co q))
    (hex : ∀ (k : Fin 4) (p j : Fin 1024), ex k (ix2 p j) = ix2 (ro p) ⟨1024 * k.val + j.val, by have := k.isLt; have := j.isLt; omega⟩)
    (hew : ∀ (k : Fin 4) (q j : Fin 1024), ew k (ix2 q j) = ix2 (co q) ⟨1024 * k.val + j.val, by have := k.isLt; have := j.isLt; omega⟩)
    (heb : ∀ q : Fin 1024, eb (ix2 (0 : Fin 1) q) = ix2 (0 : Fin 1) (co q))
    (j : S1024x1024.Idx) : k1_pay3 acc bb j = outArr X Wf bias (e3 j) := by
  obtain ⟨p, q, rfl⟩ : ∃ (p q : Fin 1024), j = ix2 p q := ⟨j 0, j 1, eq_ix2 j⟩
  rw [pay3_apply, hacc, acc_run_apply, h3, hb, heb]
  simp only [hx, hw, hex, hew]
  show _ = (∑ i : Fin 4096, X (ix2 (ro p) i) * Wf (ix2 (co q) i)) + bias (ix2 (0 : Fin 1) (co q))
  rw [← sum_regroup (fun i => X (ix2 (ro p) i) * Wf (ix2 (co q) i))]

/-! ## The blocks' places -/

/-- The printed index maps, decided over the 128 grid points: point t is (t / 16, t / 4 % 4, t % 4). -/
theorem idx_facts1 : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 ∧ t.val < 128 :=
  (by decide +kernel : ∀ t : Fin grid1.N, _)

/-- Every block of the 8 × 4 arrangement of the output is some last-block point's. -/
theorem idx_onto1 : ∀ (q0 : Fin 8) (q1 : Fin 4), ∃ t : Fin cfg1.N, t.val % 4 = 3 ∧ win1_3.index t = ![q0.val, q1.val] :=
  (by decide +kernel : ∀ (q0 : Fin 8) (q1 : Fin 4), ∃ t : Fin grid1.N, t.val % 4 = 3 ∧ win1_3.index t = ![q0.val, q1.val])

/-- The k-th point of the run of four that ends at point t. -/
def runPt (t : Fin cfg1.N) (k : Fin 4) : Fin cfg1.N :=
  ⟨t.val - 3 + k.val, by have hN : cfg1.N = 128 := N_1; have := t.isLt; have := k.isLt; omega⟩

theorem runPt_val (t : Fin cfg1.N) (k : Fin 4) : (runPt t k).val = t.val - 3 + k.val := rfl

/-! ## What a last-block point writes back, and the cover -/

section
variable (V : (c : Dev nD) → (b : Ref sig .tc) → Buf (Elt Ideal) ((c : Thread nD τ).loc b))

/-- The accumulator after a point depends on the point's number only. -/
theorem accAfter_congr (c : Dev nD) {n m : ℕ} (h : n = m) (hn : n < cfg1.N) (hm : m < cfg1.N) :
    accAfter V c n hn = accAfter V c m hm := by
  subst h; rfl

/-- The accumulator after the last point of a run of four: four steps from the reset value. -/
theorem accAfter_run (c : Dev nD) (t0 t1 t2 t3 : Fin cfg1.N) (h0 : t0.val % 4 = 0) (h1 : t1.val = t0.val + 1)
    (h2 : t2.val = t0.val + 2) (h3 : t3.val = t0.val + 3) :
    accAfter V c t3.val t3.isLt
      = k1_pay2 (wblk1 V c 0 t3) (wblk1 V c 1 t3) (k1_pay2 (wblk1 V c 0 t2) (wblk1 V c 1 t2)
          (k1_pay2 (wblk1 V c 0 t1) (wblk1 V c 1 t1) (k1_pay2 (wblk1 V c 0 t0) (wblk1 V c 1 t0) (k1_pay1 (F := Ideal))))) := by
  rw [accAfter_next V c t3 (by omega), accAfter_congr V c (show t3.val - 1 = t2.val by omega) _ t2.isLt,
    accAfter_next V c t2 (by omega), accAfter_congr V c (show t2.val - 1 = t1.val by omega) _ t1.isLt,
    accAfter_next V c t1 (by omega), accAfter_congr V c (show t1.val - 1 = t0.val by omega) _ t0.isLt,
    accAfter_first V c t0 h0]

/-- What a last-block point t writes back is block t of the output function of the arrays as the region finds them. -/
theorem flushed1_3_eq (c : Dev nD) (t : Fin cfg1.N) (hf : (cfg1.win 3).flush t = true) :
    (dat1 (F := Ideal) V c).flushed 3 t
      = ((cfg1.win 3).blk t).view.read (Elt Ideal) (outArr (V c main_v1) (V c main_v0) (V c main_v2)) := by
  show (cfg1.win 3).cut (grid1.coords t) ((dat1 (F := Ideal) V c).after 3 t) = _
  rw [after1_3]
  have h3 : t.val % 4 = 3 := (flush1_3 t).mp hf
  obtain ⟨_, _, _, _, e20, e21, e30, e31, ht⟩ := idx_facts1 t
  have hacc : accAfter V c t.val t.isLt
      = k1_pay2 (wblk1 V c 0 (runPt t 3)) (wblk1 V c 1 (runPt t 3)) (k1_pay2 (wblk1 V c 0 (runPt t 2)) (wblk1 V c 1 (runPt t 2))
          (k1_pay2 (wblk1 V c 0 (runPt t 1)) (wblk1 V c 1 (runPt t 1)) (k1_pay2 (wblk1 V c 0 (runPt t 0)) (wblk1 V c 1 (runPt t 0)) (k1_pay1 (F := Ideal))))) :=
    (accAfter_congr V c (show t.val = (runPt t 3).val by show t.val = t.val - 3 + 3; omega) t.isLt (runPt t 3).isLt).trans
      (accAfter_run V c (runPt t 0) (runPt t 1) (runPt t 2) (runPt t 3)
        (by show (t.val - 3 + 0) % 4 = 0; omega) (by show t.val - 3 + 1 = t.val - 3 + 0 + 1; omega)
        (by show t.val - 3 + 2 = t.val - 3 + 0 + 2; omega) (by show t.val - 3 + 3 = t.val - 3 + 0 + 3; omega))
  funext j
  unfold outBlk
  exact outBlk_eq_of_places (V c main_v1) (V c main_v0) (V c main_v2)
    (fun k => wblk1 V c 0 (runPt t k)) (fun k => wblk1 V c 1 (runPt t k)) (wblk1 V c 2 t) (accAfter V c t.val t.isLt) hacc
    ((cfg1.win 3).blk t).view.emb (fun k => ((cfg1.win 0).blk (runPt t k)).view.emb)
    (fun k => ((cfg1.win 1).blk (runPt t k)).view.emb) ((cfg1.win 2).blk t).view.emb
    (fun p => ⟨t.val / 16 * 1024 + p.val, by have := p.isLt; omega⟩) (fun q => ⟨t.val / 4 % 4 * 1024 + q.val, by have := q.isLt; omega⟩)
    (fun _ _ => rfl) (fun _ _ => rfl) (fun _ => rfl)
    (fun p q => funext fun a => Fin.ext (by
      match a with
      | ⟨0, _⟩ => show win1_3.index t (0 : Fin 2) * 1024 + 1 * p.val = t.val / 16 * 1024 + p.val; omega
      | ⟨1, _⟩ => show win1_3.index t (1 : Fin 2) * 1024 + 1 * q.val = t.val / 4 % 4 * 1024 + q.val; omega))
    (fun k p j => funext fun a => Fin.ext (by
      obtain ⟨f00, f01, _, _, _, _, _, _, _⟩ := idx_facts1 (runPt t k)
      have hk := k.isLt
      rw [runPt_val] at f00 f01
      match a with
      | ⟨0, _⟩ => show win1_0.index (runPt t k) (0 : Fin 2) * 1024 + 1 * p.val = t.val / 16 * 1024 + p.val; omega
      | ⟨1, _⟩ => show win1_0.index (runPt t k) (1 : Fin 2) * 1024 + 1 * j.val = 1024 * k.val + j.val; omega))
    (fun k q j => funext fun a => Fin.ext (by
      obtain ⟨_, _, f10, f11, _, _, _, _, _⟩ := idx_facts1 (runPt t k)
      have hk := k.isLt
      rw [runPt_val] at f10 f11
      match a with
      | ⟨0, _⟩ => show win1_1.index (runPt t k) (0 : Fin 2) * 1024 + 1 * q.val = t.val / 4 % 4 * 1024 + q.val; omega
      | ⟨1, _⟩ => show win1_1.index (runPt t k) (1 : Fin 2) * 1024 + 1 * j.val = 1024 * k.val + j.val; omega))
    (fun q => funext fun a => Fin.ext (by
      match a with
      | ⟨0, _⟩ => show win1_2.index t (0 : Fin 2) * 1 + 1 * 0 = 0; omega
      | ⟨1, _⟩ => show win1_2.index t (1 : Fin 2) * 1024 + 1 * q.val = t.val / 4 % 4 * 1024 + q.val; omega))
    j

/-- An index of the output array is in point t's block iff each coordinate is in the block's range on its axis. -/
theorem mem_blk1_3 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index of the output array is in some last-block point's block: row r, column o in block (r / 1024, o / 1024). -/
theorem cover1_3 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, h3, ht⟩ := idx_onto1 ⟨(i 0).val / 1024, by omega⟩ ⟨(i 1).val / 1024, by omega⟩
  have q0 : win1_3.index t (0 : Fin 2) = (i 0).val / 1024 := congrFun ht 0
  have q1 : win1_3.index t (1 : Fin 2) = (i 1).val / 1024 := congrFun ht 1
  refine ⟨t, (flush1_3 t).mpr h3, ?_⟩
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1024 ≤ (i 1).val ∧ (i 1).val < win1_3.index t (1 : Fin 2) * 1024 + 1024; omega

end

/-- After the second region the output array holds, at row r and column o, (Σ_i x2d[r, i] · weff[o, i]) + bias2d[0, o] of the arrays the region found. -/
theorem out_value (V : (c : Dev nD) → (b : Ref sig .tc) → Buf (Elt Ideal) ((c : Thread nD τ).loc b)) (c : Dev nD) (r : Fin 8192) (o : Fin 4096) : (dat1 (F := Ideal) V c).arrAt 3 cfg1.N (ix2 r o) = prodArr (V c main_v1) (V c main_v0) (V c main_v2) r o := by
  rw [(dat1 (F := Ideal) V c).arrAt_eq_of_cover 3 (outArr (V c main_v1) (V c main_v0) (V c main_v2))
    (fun t hf => flushed1_3_eq V c t hf) cover1_3]

end Cert.KernelIdeal.Frm

end
-- ==== Proof.KI.KernelValue.lean ====
/-
  The kernel program's result. The valuation at the return, read at the result's buffer at [p, q, o], is the last
  reshape of the product region's output array at row 2048 · p + q, column o; that array holds
  Σ_i x2d[r, i] · weff[o, i] + bias2d[0, o] of the arrays the region found; of those, the folded weight is the first
  region's output array, W[o, i] + 2 · Σ_r B[o, r] · A[r, i] of the launch arguments, and x2d, bias2d are the two
  reshapes of the launch arguments x and the bias. Together: the kernel form of the specification.
-/
import proofs.«155412_j75548474736691_1_alg».proof.Proof.KI.Run
import proofs.«155412_j75548474736691_1_alg».proof.Proof.KI.Ends
import proofs.«155412_j75548474736691_1_alg».proof.Proof.KI.Value0
import proofs.«155412_j75548474736691_1_alg».proof.Proof.KI.Value1
import proofs.«155412_j75548474736691_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

/-! ## The host reshapes, read at an index (for any float values) -/

section
variable {F : FTy → Type} [FloatOps F]
variable (m : (ℓ : Loc nD τ sig) → Buf (Elt F) ℓ)

/-- The result at [p, q, o] is the product region's output array at row 2048 · p + q, column o. -/
theorem Bd4_v4_apply (c : Dev nD) (p : Fin 4) (q : Fin 2048) (o : Fin 4096) :
    (Bd4 m c (Proc.devRef .tc main_v4) : S4x2048x4096.Idx → Elt F .f32) (ix3 p q o)
      = (Bd3 m c (Proc.devRef .tc main_v3) : S8192x4096.Idx → Elt F .f32) (ix2 (⟨2048 * p.val + q.val, by have := p.isLt; have := q.isLt; omega⟩ : Fin 8192) o) := by
  have e : (Bd4 m c (Proc.devRef .tc main_v4) : S4x2048x4096.Idx → Elt F .f32)
      = fun i => shapeCast S4x2048x4096 (Bd3 m c (Proc.devRef .tc main_v3) : S8192x4096.Idx → Elt F .f32) shapeCasts_S8192x4096_S4x2048x4096 i := by
    show StableHlo.after hostOps2 (Bd3 m c) (Proc.devRef .tc main_v4) = _
    after_results
    rfl
  rw [e]
  exact shapeCast_apply _ _ _ _ (by
    show (S8192x4096.rowMajor (ix2 (⟨2048 * p.val + q.val, _⟩ : Fin 8192) o)).val = (S4x2048x4096.rowMajor (ix3 p q o)).val
    rw [Shape.rowMajor_val_two, Shape.rowMajor_val_three]
    show (2048 * p.val + q.val) * 4096 + o.val = (p.val * 2048 + q.val) * 4096 + o.val
    omega)

end

section
variable {F : FTy → Type} [FloatOps F]
variable (m : (ℓ : Loc nD τ sig) → Buf (Elt F) ℓ)

/-- The second region finds the reshaped x: at row 2048 · p + q, column i it is x[p, q, i]. -/
theorem Vin1_v1_apply (c : Dev nD) (p : Fin 4) (q : Fin 2048) (i : Fin 4096) :
    (Vin1 m c main_v1 : S8192x4096.Idx → Elt F .f32) (ix2 (⟨2048 * p.val + q.val, by have := p.isLt; have := q.isLt; omega⟩ : Fin 8192) i)
      = (m ((c : Thread nD τ).loc main_arg0) : S4x2048x4096.Idx → Elt F .f32) (ix3 p q i) := by
  have e : (Vin1 m c main_v1 : S8192x4096.Idx → Elt F .f32)
      = fun j => shapeCast S8192x4096 (m ((c : Thread nD τ).loc main_arg0) : S4x2048x4096.Idx → Elt F .f32) shapeCasts_S4x2048x4096_S8192x4096 j := by
    show StableHlo.after hostOps1 (Bd1 m c) (Proc.devRef .tc main_v1) = _
    after_results
    rw [Bd1_of_ne m c main_arg0 (by decide)]
    rfl
  rw [e]
  exact shapeCast_apply _ _ _ _ (by
    show (S4x2048x4096.rowMajor (ix3 p q i)).val = (S8192x4096.rowMajor (ix2 (⟨2048 * p.val + q.val, _⟩ : Fin 8192) i)).val
    rw [Shape.rowMajor_val_two, Shape.rowMajor_val_three]
    show (p.val * 2048 + q.val) * 4096 + i.val = (2048 * p.val + q.val) * 4096 + i.val
    omega)

/-- It finds the reshaped bias: at row 0, column o it is the bias at o. -/
theorem Vin1_v2_apply (c : Dev nD) (o : Fin 4096) :
    (Vin1 m c main_v2 : S1x4096.Idx → Elt F .f32) (ix2 (0 : Fin 1) o)
      = (m ((c : Thread nD τ).loc main_arg2) : S4096.Idx → Elt F .f32) (ix1 o) := by
  have e : (Vin1 m c main_v2 : S1x4096.Idx → Elt F .f32)
      = fun j => shapeCast S1x4096 (m ((c : Thread nD τ).loc main_arg2) : S4096.Idx → Elt F .f32) shapeCasts_S4096_S1x4096 j := by
    show StableHlo.after hostOps1 (Bd1 m c) (Proc.devRef .tc main_v2) = _
    after_results
    rw [Bd1_of_ne m c main_arg2 (by decide)]
    rfl
  rw [e]
  exact shapeCast_apply _ _ _ _ (by
    show (S4096.rowMajor (ix1 o)).val = (S1x4096.rowMajor (ix2 (0 : Fin 1) o)).val
    rw [Shape.rowMajor_val_two, Shape.rowMajor_val_one]
    show o.val = 0 * 4096 + o.val
    omega)

/-- And it finds, as the folded weight, the first region's output array. -/
theorem Vin1_v0_eq (c : Dev nD) : Vin1 m c main_v0 = (dat0 (Vin0 m) c).arrAt 3 cfg0.N := by
  show StableHlo.after hostOps1 (Bd1 m c) (Proc.devRef .tc main_v0) = _
  after_results
  exact Bd1_arr m c 3

end

/-! ## The result -/

/-- The kernel program's result at [p, q, o] is the kernel form of the specification, of the launch arguments. -/
theorem kernel_value (m : (ℓ : Loc nD τ sig) → Buf (Elt Ideal) ℓ) (c : Dev nD) (p : Fin 4) (q : Fin 2048) (o : Fin 4096) :
    Bd4 m c (Proc.devRef .tc main_v4) (ix3 p q o)
      = Cert.Spec.Gk (m ((c : Thread nD τ).loc main_arg0)) (m ((c : Thread nD τ).loc main_arg1)) (m ((c : Thread nD τ).loc main_arg2))
          (m ((c : Thread nD τ).loc main_arg3)) (m ((c : Thread nD τ).loc main_arg4)) p q o := by
  have h3 : Bd3 m c (Proc.devRef .tc main_v3) = (dat1 (Vin1 m) c).arrAt 3 cfg1.N := Bd3_arr m c 3
  refine (Bd4_v4_apply m c p q o).trans ?_
  rw [h3]
  refine (out_value (Vin1 m) c _ o).trans ?_
  unfold prodArr Cert.Spec.Gk
  congr 1
  · refine Finset.sum_congr rfl fun i _ => ?_
    congr 1
    · exact Vin1_v1_apply m c p q i
    · rw [Vin1_v0_eq]
      exact weff_value (Vin0 m) c o i
  · exact Vin1_v2_apply m c o

end Cert.KernelIdeal.Frm

end
-- ==== Proof.RefValue.lean ====
/-
  The reference's result, read at an index, is the reference form of the specification.
-/
import proofs.«155412_j75548474736691_1_alg».proof.Proof.Gen.ReferenceIdeal.Run
import proofs.«155412_j75548474736691_1_alg».proof.Proof.Gen.ReferenceIdeal.Read
import proofs.«155412_j75548474736691_1_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-! ## The composed index functions at an index given by its coordinates -/

/-- The first product's left operand at [p, q, o] and contraction position i is x[p, q, i]. -/
theorem lidx_v0 (p : Fin 4) (q : Fin 2048) (o : Fin 4096) (i : Fin 4096) :
    Read.lidx_main_v0 (ix3 p q o) i = ix3 p q i :=
  funext fun a => match a with | ⟨0, _⟩ => rfl | ⟨1, _⟩ => rfl | ⟨2, _⟩ => rfl

/-- The first product's right operand at [p, q, o] and contraction position i is W[o, i]. -/
theorem ridx_v0 (p : Fin 4) (q : Fin 2048) (o : Fin 4096) (i : Fin 4096) :
    Read.ridx_main_v0 (ix3 p q o) i = ix2 o i :=
  funext fun a => match a with | ⟨0, _⟩ => rfl | ⟨1, _⟩ => rfl

/-- The bias, broadcast twice, is read at [o]. -/
theorem idx_v1_v2 (p : Fin 4) (q : Fin 2048) (o : Fin 4096) :
    Read.idx_main_v1 (Read.idx_main_v2 (ix3 p q o)) = ix1 o :=
  funext fun a => match a with | ⟨0, _⟩ => rfl

/-- The outer low-rank product's left operand at [p, q, o] and position r is the inner product at [p, q, r]. -/
theorem lidx_v5 (p : Fin 4) (q : Fin 2048) (o : Fin 4096) (r : Fin 16) :
    Read.lidx_main_v5 (ix3 p q o) r = ix3 p q r :=
  funext fun a => match a with | ⟨0, _⟩ => rfl | ⟨1, _⟩ => rfl | ⟨2, _⟩ => rfl

/-- The outer low-rank product's right operand at [p, q, o] and position r is B[o, r]. -/
theorem ridx_v5 (p : Fin 4) (q : Fin 2048) (o : Fin 4096) (r : Fin 16) :
    Read.ridx_main_v5 (ix3 p q o) r = ix2 o r :=
  funext fun a => match a with | ⟨0, _⟩ => rfl | ⟨1, _⟩ => rfl

/-- The inner low-rank product's left operand at [p, q, r] and position i is x[p, q, i]. -/
theorem lidx_v4 (p : Fin 4) (q : Fin 2048) (r : Fin 16) (i : Fin 4096) :
    Read.lidx_main_v4 (ix3 p q r) i = ix3 p q i :=
  funext fun a => match a with | ⟨0, _⟩ => rfl | ⟨1, _⟩ => rfl | ⟨2, _⟩ => rfl

/-- The inner low-rank product's right operand at [p, q, r] and position i is A[r, i]. -/
theorem ridx_v4 (p : Fin 4) (q : Fin 2048) (r : Fin 16) (i : Fin 4096) :
    Read.ridx_main_v4 (ix3 p q r) i = ix2 r i :=
  funext fun a => match a with | ⟨0, _⟩ => rfl | ⟨1, _⟩ => rfl

/-! ## The result at an index -/

/-- The reference's result read at [p, q, o] is the reference form of the specification. -/
theorem result_eq [Cert.ReferenceIdeal.Facts]
    (x : FVec Ideal Cert.ReferenceIdeal.S4x2048x4096 .f32) (W : FVec Ideal Cert.ReferenceIdeal.S4096x4096 .f32)
    (b : FVec Ideal Cert.ReferenceIdeal.S4096 .f32) (A : FVec Ideal Cert.ReferenceIdeal.S16x4096 .f32)
    (B : FVec Ideal Cert.ReferenceIdeal.S4096x16 .f32) (p : Fin 4) (q : Fin 2048) (o : Fin 4096) :
    Cert.ReferenceIdeal.Read.val_main_v8 (F := Ideal) x W b A B (ix3 p q o) = Cert.Spec.Gr x W b A B p q o := by
  rw [Read.val_main_v8_apply, Read.val_main_v3_apply, Read.val_main_v7_apply, Read.val_main_v0_apply,
    Read.val_main_v2_apply, Read.val_main_v1_apply, Read.val_main_v6_apply, Read.val_main_cst_apply,
    Read.val_main_v5_apply]
  simp only [Read.val_main_v4_apply, lidx_v0, ridx_v0, idx_v1_v2, lidx_v5, ridx_v5, lidx_v4, ridx_v4,
    Ideal.addf_def, Ideal.mulf_def, Ideal.ofBits_def]
  rfl

/-- The composed term of the reference's run, read at [p, q, o], is the reference form of the specification. -/
theorem run_term_eq [Cert.ReferenceIdeal.Facts]
    (x : FVec Ideal Cert.ReferenceIdeal.S4x2048x4096 .f32) (W : FVec Ideal Cert.ReferenceIdeal.S4096x4096 .f32)
    (b : FVec Ideal Cert.ReferenceIdeal.S4096 .f32) (A : FVec Ideal Cert.ReferenceIdeal.S16x4096 .f32)
    (B : FVec Ideal Cert.ReferenceIdeal.S4096x16 .f32) (p : Fin 4) (q : Fin 2048) (o : Fin 4096) :
    (addf (addf (Host.dotGeneral dot_S4x2048x4096_S4096x4096_S4x2048x4096_2_1_01_0_n_n none x W) (broadcastInDim S4x2048x4096 ![0, 1, 2] bcast_S1x1x4096_S4x2048x4096_0_1_2 (broadcastInDim S1x1x4096 ![2] bcast_S4096_S1x1x4096_2 b))) (mulf (broadcastInDim S4x2048x4096 ![] bcast_S_S4x2048x4096 (constant S_ .f32 0x40000000#32)) (Host.dotGeneral dot_S4x2048x16_S4096x16_S4x2048x4096_2_1_01_0_n_n none (Host.dotGeneral dot_S4x2048x4096_S16x4096_S4x2048x16_2_1_01_0_n_n none x A) B))
      : (⟨S4x2048x4096, .f32⟩ : BufTy).Contents (Elt Ideal)) (ix3 p q o)
      = Cert.Spec.Gr x W b A B p q o :=
  (congrFun (Read.val_main_v8_eq (F := Ideal) x W b A B) (ix3 p q o)).trans (result_eq x W b A B p q o)

end Cert.ReferenceIdeal.RefValue

end
-- ==== Proof.Consts.lean ====
/-
  The two float words the programs spell, as the extended reals they denote: the scale `0x40000000` is the real
  number 2, and `0x7F800000` is `+∞`. Both are evaluated here, once, so that the modules that use them cite the
  values and never open the denotation of a word themselves.
-/
import Mathlib.Data.EReal.Basic
import Mathlib.Tactic.NormNum
import Idealize.ShloMosaic.PureOps.Ideal
import proofs.«155412_j75548474736691_1_alg».proof.Proof.Spec

noncomputable section

namespace Cert.Spec

open Idealize.ShloMosaic

/-- The scale's word is the real number 2. -/
theorem two_eq : two = ((2 : ℝ) : EReal) := by
  unfold two
  simp [Ideal.ofBits, Ideal.ieee, -EReal.coe_mul]; norm_num

/-- The word `0x7F800000` denotes `+∞`. -/
theorem ofBits_inf : Ideal.ofBits .f32 0x7F800000#32 = (⊤ : EReal) := by
  simp [Ideal.ofBits, Ideal.ieee]

end Cert.Spec

end
-- ==== Proof.Law.lean ====
/-
  The algebraic law of the specification: with every entry a real number, the kernel's form (one contraction
  against the folded weight, then the bias) and the reference's form (base product plus bias, plus the scaled
  two-step low-rank product) are the same extended real.

  The identity is proved over the reals first, for arbitrary finite index types:

      Σ_i x_i · (W_i + c · Σ_r B_r · A_{r,i}) + b  =  (Σ_i x_i · W_i + b) + c · Σ_r (Σ_i x_i · A_{r,i}) · B_r,

  by distributing the product over the inner sum and exchanging the two finite sums. It is then carried to the
  extended reals along the coercion, which commutes with sums and products of reals.
-/
import Mathlib.Algebra.BigOperators.Ring.Finset
import Mathlib.Algebra.BigOperators.Group.Finset.Sigma
import Mathlib.Data.EReal.Basic
import Mathlib.Tactic.Ring
import Idealize.ShloMosaic.PureOps.Ideal
import Idealize.ShloMosaic.Lib.ValueIdx
import proofs.«155412_j75548474736691_1_alg».proof.Proof.Spec
import proofs.«155412_j75548474736691_1_alg».proof.Proof.Consts

noncomputable section

open scoped BigOperators

namespace Cert.Spec

open Idealize.ShloMosaic Idealize.ShloMosaic.ValueIdx

/-- The coercion of the reals into the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The law over the reals, for arbitrary finite index types: distribute, then exchange the two sums. -/
theorem real_law {ι ρ : Type} [Fintype ι] [Fintype ρ] (x W : ι → ℝ) (b c : ℝ) (Bm : ρ → ℝ) (Am : ρ → ι → ℝ) :
    (∑ i, x i * (W i + c * ∑ r, Bm r * Am r i)) + b
      = ((∑ i, x i * W i) + b) + c * ∑ r, (∑ i, x i * Am r i) * Bm r := by
  have h : ∑ i, x i * (W i + c * ∑ r, Bm r * Am r i)
      = (∑ i, x i * W i) + c * ∑ r, (∑ i, x i * Am r i) * Bm r := by
    simp only [mul_add, Finset.sum_add_distrib, Finset.mul_sum, Finset.sum_mul]
    congr 1
    rw [Finset.sum_comm]
    refine Finset.sum_congr rfl fun r _ => Finset.sum_congr rfl fun i _ => ?_
    ring
  rw [h]; ring

/-- With every entry real, the kernel's form and the reference's form agree: distributivity of the product over the
    folded weight's sum, then the two finite sums exchanged. -/
theorem law (x : SX.Idx → EReal) (W : SW.Idx → EReal) (b : Sb.Idx → EReal) (A : SA.Idx → EReal) (B : SB.Idx → EReal)
    (hx : IsReal x) (hW : IsReal W) (hb : IsReal b) (hA : IsReal A) (hB : IsReal B)
    (p : Fin 4) (q : Fin 2048) (o : Fin 4096) : Gk x W b A B p q o = Gr x W b A B p q o := by
  unfold IsReal at hx hW hb hA hB
  choose xr hxr using hx
  choose Wr hWr using hW
  choose br hbr using hb
  choose Ar hAr using hA
  choose Br hBr using hB
  unfold Gk Gr weff
  simp only [hxr, hWr, hbr, hAr, hBr, two_eq]
  simp only [← EReal.coe_mul, ← coe_sum, ← EReal.coe_add]
  exact congrArg _ (real_law (fun i => xr (ix3 p q i)) (fun i => Wr (ix2 o i)) (br (ix1 o)) 2
    (fun r => Br (ix2 o r)) (fun r i => Ar (ix2 r i)))

end Cert.Spec

end
-- ==== Proof.Finite.lean ====
/-
  From the precondition to real entries.

  The precondition is the conjunction, over the five inputs, of "every entry `v` satisfies `|v| < +∞`", each
  conjunct a reduction by `and` over all axes of the entrywise comparison against the word of `+∞`. Read at the
  extended reals: the word `0x7F800000` denotes `⊤`, `|v|` is `max v (-v)`, and `max v (-v) < ⊤` excludes both
  `v = ⊤` and `v = ⊥` (whose negation is `⊤`); what remains is a real number.
-/
import Mathlib.Data.EReal.Basic
import Idealize.ShloMosaic.PureOps.Ideal
import Idealize.ShloMosaic.Lib.ValueIdx
import Idealize.ShloMosaic.Lib.ReduceAll
import proofs.«155412_j75548474736691_1_alg».proof.Pre_finite_inputs
import proofs.«155412_j75548474736691_1_alg».proof.Proof.Spec
import proofs.«155412_j75548474736691_1_alg».proof.Proof.Consts

noncomputable section

namespace Cert.Spec

open Idealize.ShloMosaic

/-- The rank-0 shape has exactly one index. -/
instance subsingleton_scalarIdx : Subsingleton Cert.Pre_finite_inputs.S_.Idx := ⟨fun a b => funext fun d => d.elim0⟩

/-- An extended real whose absolute value lies strictly below `+∞` is a real number. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

/-- One input: if the conjunction over all its entries of `|v| < +∞` holds, every entry is a real number. -/
theorem isReal_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32)
    (e : Host.reduce IntOp.andi
        (cmpf .olt (Host.absf v)
          (broadcastInDim s ![] hb (constant (F := Ideal) Cert.Pre_finite_inputs.S_ .f32 0x7F800000#32)))
        (constantI Cert.Pre_finite_inputs.S_ 1 1#1) hr hu ValueIdx.ix0 = 1#1) : IsReal v := by
  intro i
  have hi := Host.reduce_andi_all _ _ hr hu ValueIdx.ix0 e i
  exact real_of_abs_lt_inf (v i) hi

/-- A conjunction of two one-bit scalars that is 1 has both conjuncts 1. -/
theorem andi_ix0 (a c : IVec Cert.Pre_finite_inputs.S_ 1) (e : andi a c ValueIdx.ix0 = 1#1) :
    a ValueIdx.ix0 = 1#1 ∧ c ValueIdx.ix0 = 1#1 :=
  IntOp.andi_eq_one.1 e

open Idealize.ShloMosaic in
/-- Under the precondition every entry of every input is a real number. -/
theorem isReal_of_pre [Cert.Pre_finite_inputs.Facts]
    (x : FVec Ideal Cert.Pre_finite_inputs.S4x2048x4096 .f32) (W : FVec Ideal Cert.Pre_finite_inputs.S4096x4096 .f32)
    (b : FVec Ideal Cert.Pre_finite_inputs.S4096 .f32) (A : FVec Ideal Cert.Pre_finite_inputs.S16x4096 .f32)
    (B : FVec Ideal Cert.Pre_finite_inputs.S4096x16 .f32)
    (h : Cert.Pre_finite_inputs.fn (F := Ideal) x W b A B = fun _ => 1#1) :
    IsReal x ∧ IsReal W ∧ IsReal b ∧ IsReal A ∧ IsReal B := by
  have h0 := congrFun h ValueIdx.ix0
  unfold Cert.Pre_finite_inputs.fn Cert.Pre_finite_inputs.fn_part1 at h0
  dsimp only at h0
  obtain ⟨h1, hB⟩ := andi_ix0 _ _ h0
  obtain ⟨h2, hA⟩ := andi_ix0 _ _ h1
  obtain ⟨h3, hb⟩ := andi_ix0 _ _ h2
  obtain ⟨hx, hW⟩ := andi_ix0 _ _ h3
  exact ⟨isReal_of_all _ _ _ x hx, isReal_of_all _ _ _ W hW, isReal_of_all _ _ _ b hb,
    isReal_of_all _ _ _ A hA, isReal_of_all _ _ _ B hB⟩

end Cert.Spec

end
-- ==== Proof.lean ====
/-
  The certificate: a low-rank update folded into a dense layer's weight, against the two-step reference.

  The kernel first folds the update into the weight, W_eff = W + 2 · (B · A), one 1024 × 1024 block per grid point, and then
  computes x · W_effᵀ + b, the contraction accumulated over four blocks in a scratch buffer and the bias added at the
  last; the reference computes (x · Wᵀ + b) + 2 · ((x · Aᵀ) · Bᵀ). At the extended reals, index by index, the kernel's
  result is (Σ_i x_i · (W_oi + 2 Σ_r B_or A_ri)) + b_o and the reference's is ((Σ_i x_i W_oi) + b_o) + 2 Σ_r (Σ_i x_i A_ri) B_or;
  with every input entry finite these are equal by distributivity and an exchange of the two finite sums.

  * The frames of the two kernel programs: the whole program's run (each region entered from the buffers' contents at
    its boundary, the host reshapes between them), whose post names every unscoped buffer; no operation writes an argument.
  * The reference's frame: its run as a line of host operations, the result dropped.
  * The ideal pass rewrote nothing, so the idealization conjunct is trivial.
  * The value claim: the kernel's result array read through the two regions' write-backs and the reshapes; the
    reference's read one operation at a time; the law above under the precondition's finiteness.
-/
import proofs.«155412_j75548474736691_1_alg».proof.Defs
import proofs.«155412_j75548474736691_1_alg».proof.Proof.Gen.Kernel
import proofs.«155412_j75548474736691_1_alg».proof.Proof.Gen.KernelIdeal
import proofs.«155412_j75548474736691_1_alg».proof.Proof.Gen.ReferenceIdeal
import proofs.«155412_j75548474736691_1_alg».proof.Proof.Gen.Pre_finite_inputs
import proofs.«155412_j75548474736691_1_alg».proof.Proof.Gen.ReferenceIdeal.Run
import proofs.«155412_j75548474736691_1_alg».proof.Proof.K.Ends
import proofs.«155412_j75548474736691_1_alg».proof.Proof.KI.Ends
import proofs.«155412_j75548474736691_1_alg».proof.Proof.KI.KernelValue
import proofs.«155412_j75548474736691_1_alg».proof.Proof.RefValue
import proofs.«155412_j75548474736691_1_alg».proof.Proof.Law
import proofs.«155412_j75548474736691_1_alg».proof.Proof.Finite
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ =>
  (θ_run (Cert.Kernel.defs (F := Bits)) _ _).mono
    (fun _ h c => ⟨(h c _ (Cert.Kernel.Frm.mem_uc Cert.Kernel.main_arg0 (by decide))).trans (Cert.Kernel.Frm.Bd4_arg0 m c),
      (h c _ (Cert.Kernel.Frm.mem_uc Cert.Kernel.main_arg1 (by decide))).trans (Cert.Kernel.Frm.Bd4_arg1 m c),
      (h c _ (Cert.Kernel.Frm.mem_uc Cert.Kernel.main_arg2 (by decide))).trans (Cert.Kernel.Frm.Bd4_arg2 m c),
      (h c _ (Cert.Kernel.Frm.mem_uc Cert.Kernel.main_arg3 (by decide))).trans (Cert.Kernel.Frm.Bd4_arg3 m c),
      (h c _ (Cert.Kernel.Frm.mem_uc Cert.Kernel.main_arg4 (by decide))).trans (Cert.Kernel.Frm.Bd4_arg4 m c)⟩)
    (Cert.Kernel.Frm.run_main (F := Bits) m ρ)

/-- So does the idealized one. -/
theorem frame_ki : Cert.frame_KernelIdeal := fun m ρ _ =>
  (θ_run (Cert.KernelIdeal.defs (F := Ideal)) _ _).mono
    (fun _ h c => ⟨(h c _ (Cert.KernelIdeal.Frm.mem_uc Cert.KernelIdeal.main_arg0 (by decide))).trans (Cert.KernelIdeal.Frm.Bd4_arg0 m c),
      (h c _ (Cert.KernelIdeal.Frm.mem_uc Cert.KernelIdeal.main_arg1 (by decide))).trans (Cert.KernelIdeal.Frm.Bd4_arg1 m c),
      (h c _ (Cert.KernelIdeal.Frm.mem_uc Cert.KernelIdeal.main_arg2 (by decide))).trans (Cert.KernelIdeal.Frm.Bd4_arg2 m c),
      (h c _ (Cert.KernelIdeal.Frm.mem_uc Cert.KernelIdeal.main_arg3 (by decide))).trans (Cert.KernelIdeal.Frm.Bd4_arg3 m c),
      (h c _ (Cert.KernelIdeal.Frm.mem_uc Cert.KernelIdeal.main_arg4 (by decide))).trans (Cert.KernelIdeal.Frm.Bd4_arg4 m c)⟩)
    (Cert.KernelIdeal.Frm.run_main (F := Ideal) m ρ)

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs run, and from memories agreeing on the arguments end with equal results: the kernel's array
    is `Gk` of the arguments, the reference's `Gr`, and the two agree where every entry is finite. -/
theorem algebraic : Cert.algebraic_KernelIdeal_ReferenceIdeal := by
  intro m g m' g' hpre hagree
  refine ⟨fun c => Cert.KernelIdeal.Frm.Bd4 m c (Proc.devRef .tc Cert.KernelIdeal.main_v4), ?_, ?_⟩
  · exact (θ_run (Cert.KernelIdeal.defs (F := Ideal)) _ _).mono
      (fun _ h c => ⟨h c _ (Cert.KernelIdeal.Frm.mem_uc Cert.KernelIdeal.main_v4 (by decide)),
      (h c _ (Cert.KernelIdeal.Frm.mem_uc Cert.KernelIdeal.main_arg0 (by decide))).trans (Cert.KernelIdeal.Frm.Bd4_arg0 m c),
      (h c _ (Cert.KernelIdeal.Frm.mem_uc Cert.KernelIdeal.main_arg1 (by decide))).trans (Cert.KernelIdeal.Frm.Bd4_arg1 m c),
      (h c _ (Cert.KernelIdeal.Frm.mem_uc Cert.KernelIdeal.main_arg2 (by decide))).trans (Cert.KernelIdeal.Frm.Bd4_arg2 m c),
      (h c _ (Cert.KernelIdeal.Frm.mem_uc Cert.KernelIdeal.main_arg3 (by decide))).trans (Cert.KernelIdeal.Frm.Bd4_arg3 m c),
      (h c _ (Cert.KernelIdeal.Frm.mem_uc Cert.KernelIdeal.main_arg4 (by decide))).trans (Cert.KernelIdeal.Frm.Bd4_arg4 m c)⟩)
      (Cert.KernelIdeal.Frm.run_main (F := Ideal) m g)
  · refine (θ_run Cert.ReferenceIdeal.defs _ _).mono (fun _ h c => ⟨(h c).1.trans ?_, (h c).2⟩)
      (Cert.ReferenceIdeal.Value.run (F := Ideal) m' g')
    obtain ⟨hx, hW, hb, hA, hB⟩ := Cert.Spec.isReal_of_pre _ _ _ _ _ (hpre c)
    rw [(hagree c).1, (hagree c).2.1, (hagree c).2.2.1, (hagree c).2.2.2.1, (hagree c).2.2.2.2]
    funext j
    obtain ⟨p, q, o, rfl⟩ : ∃ (p : Fin 4) (q : Fin 2048) (o : Fin 4096), j = ix3 p q o := ⟨j 0, j 1, j 2, eq_ix3 j⟩
    rw [Cert.ReferenceIdeal.RefValue.run_term_eq]
    exact ((Cert.KernelIdeal.Frm.kernel_value m c p q o).trans (Cert.Spec.law _ _ _ _ _ hx hW hb hA hB p q o)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
